-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v93)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v93) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x16384 : Shape := ⟨2, ![16384, 16384]⟩
abbrev S2x524288 : Shape := ⟨2, ![2, 524288]⟩
abbrev S16384x64 : Shape := ⟨2, ![16384, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S_ : Shape := ⟨0, ![]⟩

class Facts : Prop where
  bcast_S_S16384x16384 : S_.BroadcastsInDim S16384x16384 (![] : Fin 0 → Fin S16384x16384.rank)
  reducesTo_S16384x16384_S_d0_1 : S16384x16384.ReducesTo [0, 1] S_
  h_S_ : 0 < S_.numel
  bcast_S_S16384x64 : S_.BroadcastsInDim S16384x64 (![] : Fin 0 → Fin S16384x64.rank)
  reducesTo_S16384x64_S_d0_1 : S16384x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S32 .f32) (main_arg6 : FVec F S32x16 .f32) (main_arg7 : FVec F S16 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x16 .f32 := Host.absf main_arg6
  let main_cst_8 : FVec F S_ .f32 := constant S_ .f32 0x7F800000#32
  let main_v25 : FVec F S32x16 .f32 := broadcastInDim S32x16 ![] bcast_S_S32x16 main_cst_8
  let main_v26 : IVec S32x16 1 := cmpf .olt main_v24 main_v25
  let main_c_9 : IVec S_ 1 := constantI S_ 1 1#1
  let main_v27 : IVec S_ 1 := (fun x v => Host.reduce IntOp.andi x v reducesTo_S32x16_S_d0_1 h_S_) main_v26 main_c_9
  let main_v28 : IVec S_ 1 := andi main_v23 main_v27
  let main_v29 : FVec F S16 .f32 := Host.absf main_arg7
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  main_v33

def fn {F : FTy → Type} [FloatOps F] (main_arg0 : FVec F S16384x16384 .f32) (main_arg1 : IVec S2x524288 32) (main_arg2 : FVec F S16384x64 .f32) (main_arg3 : FVec F S64 .f32) (main_arg4 : FVec F S64x32 .f32) (main_arg5 : FVec F S32 .f32) (main_arg6 : FVec F S32x16 .f32) (main_arg7 : FVec F S16 .f32) : IVec S_ 1 :=
  let main_v0 : FVec F S16384x16384 .f32 := Host.absf main_arg0
  let main_cst : FVec F S_ .f32 := constant S_ .f32 0x7F800000#32
  let main_v1 : FVec F S16384x16384 .f32 := broadcastInDim S16384x16384 ![] bcast_S_S16384x16384 main_cst
  let main_v2 : IVec S16384x16384 1 := cmpf .olt main_v0 main_v1
  let main_c : IVec S_ 1 := constantI S_ 1 1#1
  let main_v3 : IVec S_ 1 := (fun x v => Host.reduce IntOp.andi x v reducesTo_S16384x16384_S_d0_1 h_S_) main_v2 main_c
  let main_v4 : FVec F S16384x64 .f32 := Host.absf main_arg2
  let main_cst_0 : FVec F S_ .f32 := constant S_ .f32 0x7F800000#32
  let main_v5 : FVec F S16384x64 .f32 := broadcastInDim S16384x64 ![] bcast_S_S16384x64 main_cst_0
  let main_v6 : IVec S16384x64 1 := cmpf .olt main_v4 main_v5
  let main_c_1 : IVec S_ 1 := constantI S_ 1 1#1
  let main_v7 : IVec S_ 1 := (fun x v => Host.reduce IntOp.andi x v reducesTo_S16384x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_arg6 main_arg7 main_v13 main_v16
-- ==== Kernel.lean ====
abbrev S16384x16384 : Shape := ⟨2, ![16384, 16384]⟩
abbrev S2x524288 : Shape := ⟨2, ![2, 524288]⟩
abbrev S16384x64 : Shape := ⟨2, ![16384, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16384 : Shape := ⟨1, ![16384]⟩
abbrev S1x524288 : Shape := ⟨2, ![1, 524288]⟩
abbrev S524288 : Shape := ⟨1, ![524288]⟩
abbrev S540672 : Shape := ⟨1, ![540672]⟩
abbrev S_ : Shape := ⟨0, ![]⟩
abbrev S540672x1 : Shape := ⟨2, ![540672, 1]⟩
abbrev S512x4096 : Shape := ⟨2, ![512, 4096]⟩
abbrev S4096x64 : Shape := ⟨2, ![4096, 64]⟩
abbrev S512x64 : Shape := ⟨2, ![512, 64]⟩
abbrev S540672x64 : Shape := ⟨2, ![540672, 64]⟩
abbrev S1x64 : Shape := ⟨2, ![1, 64]⟩
abbrev S16384x32 : Shape := ⟨2, ![16384, 32]⟩
abbrev S540672x32 : Shape := ⟨2, ![540672, 32]⟩
abbrev S1x32 : Shape := ⟨2, ![1, 32]⟩
abbrev S16384x16 : Shape := ⟨2, ![16384, 16]⟩
abbrev S540672x16 : Shape := ⟨2, ![540672, 16]⟩
abbrev S1x16 : Shape := ⟨2, ![1, 16]⟩
abbrev S16384x1 : Shape := ⟨2, ![16384, 1]⟩

abbrev nBuf : Space → Nat
  | .hbm => 128
  | .vmem => 7
  | .smem => 0
  | _ => 0

abbrev bufTy : (tb : Table) → Fin (tcTables nBuf tb) → BufTy
  | .hbm, ⟨0, _⟩ => ⟨S16384x16384, .f32⟩
  | .hbm, ⟨1, _⟩ => ⟨S2x524288, .i32⟩
  | .hbm, ⟨2, _⟩ => ⟨S16384x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S32x16, .f32⟩
  | .hbm, ⟨7, _⟩ => ⟨S16, .f32⟩
  | .hbm, ⟨8, _⟩ => ⟨S16384, .i32⟩
  | .hbm, ⟨9, _⟩ => ⟨S1x524288, .i32⟩
  | .hbm, ⟨10, _⟩ => ⟨S524288, .i32⟩
  | .hbm, ⟨11, _⟩ => ⟨S540672, .i32⟩
  | .hbm, ⟨12, _⟩ => ⟨S1x524288, .i32⟩
  | .hbm, ⟨13, _⟩ => ⟨S524288, .i32⟩
  | .hbm, ⟨14, _⟩ => ⟨S540672, .i32⟩
  | .hbm, ⟨15, _⟩ => ⟨S_, .f32⟩
  | .hbm, ⟨16, _⟩ => ⟨S540672, .f32⟩
  | .hbm, ⟨17, _⟩ => ⟨S_, .f32⟩
  | .hbm, ⟨18, _⟩ => ⟨S16384, .f32⟩
  | .hbm, ⟨19, _⟩ => ⟨S540672x1, .i32⟩
  | .hbm, ⟨20, _⟩ => ⟨S16384, .f32⟩
  | .hbm, ⟨21, _⟩ => ⟨S_, .f32⟩
  | .hbm, ⟨22, _⟩ => ⟨S16384, .f32⟩
  | .hbm, ⟨23, _⟩ => ⟨S16384, .i1⟩
  | .hbm, ⟨24, _⟩ => ⟨S16384, .f32⟩
  | .hbm, ⟨25, _⟩ => ⟨S_, .f32⟩
  | .hbm, ⟨26, _⟩ => ⟨S_, .f32⟩
  | .hbm, ⟨27, _⟩ => ⟨S16384, .f32⟩
  | .hbm, ⟨28, _⟩ => ⟨S16384, .f32⟩
  | .hbm, ⟨29, _⟩ => ⟨S_, .i32⟩
  | .hbm, ⟨30, _⟩ => ⟨S540672, .i32⟩
  | .hbm, ⟨31, _⟩ => ⟨S540672, .i1⟩
  | .hbm, ⟨32, _⟩ => ⟨S_, .i32⟩
  | .hbm, ⟨33, _⟩ => ⟨S540672, .i32⟩
  | .hbm, ⟨34, _⟩ => ⟨S540672, .i32⟩
  | .hbm, ⟨35, _⟩ => ⟨S540672, .i32⟩
  | .hbm, ⟨36, _⟩ => ⟨S540672x1, .i32⟩
  | .hbm, ⟨37, _⟩ => ⟨S540672, .f32⟩
  | .hbm, ⟨38, _⟩ => ⟨S_, .i32⟩
  | .hbm, ⟨39, _⟩ => ⟨S540672, .i32⟩
  | .hbm, ⟨40, _⟩ => ⟨S540672, .i1⟩
  | .hbm, ⟨41, _⟩ => ⟨S_, .i32⟩
  | .hbm, ⟨42, _⟩ => ⟨S540672, .i32⟩
  | .hbm, ⟨43, _⟩ => ⟨S540672, .i32⟩
  | .hbm, ⟨44, _⟩ => ⟨S540672, .i32⟩
  | .hbm, ⟨45, _⟩ => ⟨S540672x1, .i32⟩
  | .hbm, ⟨46, _⟩ => ⟨S540672, .f32⟩
  | .hbm, ⟨47, _⟩ => ⟨S540672, .f32⟩
  | .hbm, ⟨48, _⟩ => ⟨S16384x64, .f32⟩
  | .hbm, ⟨49, _⟩ => ⟨S_, .i32⟩
  | .hbm, ⟨50, _⟩ => ⟨S540672, .i32⟩
  | .hbm, ⟨51, _⟩ => ⟨S540672, .i1⟩
  | .hbm, ⟨52, _⟩ => ⟨S_, .i32⟩
  | .hbm, ⟨53, _⟩ => ⟨S540672, .i32⟩
  | .hbm, ⟨54, _⟩ => ⟨S540672, .i32⟩
  | .hbm, ⟨55, _⟩ => ⟨S540672, .i32⟩
  | .hbm, ⟨56, _⟩ => ⟨S540672x1, .i32⟩
  | .hbm, ⟨57, _⟩ => ⟨S540672x64, .f32⟩
  | .hbm, ⟨58, _⟩ => ⟨S540672x1, .f32⟩
  | .hbm, ⟨59, _⟩ => ⟨S540672x64, .f32⟩
  | .hbm, ⟨60, _⟩ => ⟨S540672x64, .f32⟩
  | .hbm, ⟨61, _⟩ => ⟨S_, .f32⟩
  | .hbm, ⟨62, _⟩ => ⟨S16384x64, .f32⟩
  | .hbm, ⟨63, _⟩ => ⟨S540672x1, .i32⟩
  | .hbm, ⟨64, _⟩ => ⟨S16384x64, .f32⟩
  | .hbm, ⟨65, _⟩ => ⟨S1x64, .f32⟩
  | .hbm, ⟨66, _⟩ => ⟨S16384x64, .f32⟩
  | .hbm, ⟨67, _⟩ => ⟨S16384x64, .f32⟩
  | .hbm, ⟨68, _⟩ => ⟨S_, .f32⟩
  | .hbm, ⟨69, _⟩ => ⟨S16384x64, .f32⟩
  | .hbm, ⟨70, _⟩ => ⟨S16384x64, .f32⟩
  | .hbm, ⟨71, _⟩ => ⟨S16384x32, .f32⟩
  | .hbm, ⟨72, _⟩ => ⟨S_, .i32⟩
  | .hbm, ⟨73, _⟩ => ⟨S540672, .i32⟩
  | .hbm, ⟨74, _⟩ => ⟨S540672, .i1⟩
  | .hbm, ⟨75, _⟩ => ⟨S_, .i32⟩
  | .hbm, ⟨76, _⟩ => ⟨S540672, .i32⟩
  | .hbm, ⟨77, _⟩ => ⟨S540672, .i32⟩
  | .hbm, ⟨78, _⟩ => ⟨S540672, .i32⟩
  | .hbm, ⟨79, _⟩ => ⟨S540672x1, .i32⟩
  | .hbm, ⟨80, _⟩ => ⟨S540672x32, .f32⟩
  | .hbm, ⟨81, _⟩ => ⟨S540672x1, .f32⟩
  | .hbm, ⟨82, _⟩ => ⟨S540672x32, .f32⟩
  | .hbm, ⟨83, _⟩ => ⟨S540672x32, .f32⟩
  | .hbm, ⟨84, _⟩ => ⟨S_, .f32⟩
  | .hbm, ⟨85, _⟩ => ⟨S16384x32, .f32⟩
  | .hbm, ⟨86, _⟩ => ⟨S540672x1, .i32⟩
  | .hbm, ⟨87, _⟩ => ⟨S16384x32, .f32⟩
  | .hbm, ⟨88, _⟩ => ⟨S1x32, .f32⟩
  | .hbm, ⟨89, _⟩ => ⟨S16384x32, .f32⟩
  | .hbm, ⟨90, _⟩ => ⟨S16384x32, .f32⟩
  | .hbm, ⟨91, _⟩ => ⟨S_, .f32⟩
  | .hbm, ⟨92, _⟩ => ⟨S16384x32, .f32⟩
  | .hbm, ⟨93, _⟩ => ⟨S16384x32, .f32⟩
  | .hbm, ⟨94, _⟩ => ⟨S16384x16, .f32⟩
  | .hbm, ⟨95, _⟩ => ⟨S_, .i32⟩
  | .hbm, ⟨96, _⟩ => ⟨S540672, .i32⟩
  | .hbm, ⟨97, _⟩ => ⟨S540672, .i1⟩
  | .hbm, ⟨98, _⟩ => ⟨S_, .i32⟩
  | .hbm, ⟨99, _⟩ => ⟨S540672, .i32⟩
  | .hbm, ⟨100, _⟩ => ⟨S540672, .i32⟩
  | .hbm, ⟨101, _⟩ => ⟨S540672, .i32⟩
  | .hbm, ⟨102, _⟩ => ⟨S540672x1, .i32⟩
  | .hbm, ⟨103, _⟩ => ⟨S540672x16, .f32⟩
  | .hbm, ⟨104, _⟩ => ⟨S540672x1, .f32⟩
  | .hbm, ⟨105, _⟩ => ⟨S540672x16, .f32⟩
  | .hbm, ⟨106, _⟩ => ⟨S540672x16, .f32⟩
  | .hbm, ⟨107, _⟩ => ⟨S_, .f32⟩
  | .hbm, ⟨108, _⟩ => ⟨S16384x16, .f32⟩
  | .hbm, ⟨109, _⟩ => ⟨S540672x1, .i32⟩
  | .hbm, ⟨110, _⟩ => ⟨S16384x16, .f32⟩
  | .hbm, ⟨111, _⟩ => ⟨S1x16, .f32⟩
  | .hbm, ⟨112, _⟩ => ⟨S16384x16, .f32⟩
  | .hbm, ⟨113, _⟩ => ⟨S16384x16, .f32⟩
  | .hbm, ⟨114, _⟩ => ⟨S_, .f32⟩
  | .hbm, ⟨115, _⟩ => ⟨S16384, .f32⟩
  | .hbm, ⟨116, _⟩ => ⟨S_, .f32⟩
  | .hbm, ⟨117, _⟩ => ⟨S16384, .f32⟩
  | .hbm, ⟨118, _⟩ => ⟨S16384, .f32⟩
  | .hbm, ⟨119, _⟩ => ⟨S16384x1, .f32⟩
  | .hbm, ⟨120, _⟩ => ⟨S16384x16, .f32⟩
  | .hbm, ⟨121, _⟩ => ⟨S16384x16, .f32⟩
  | .hbm, ⟨122, _⟩ => ⟨S16384x16, .f32⟩
  | .hbm, ⟨123, _⟩ => ⟨S_, .f32⟩
  | .hbm, ⟨124, _⟩ => ⟨S16384, .f32⟩
  | .hbm, ⟨125, _⟩ => ⟨S16384x1, .f32⟩
  | .hbm, ⟨126, _⟩ => ⟨S16384x16, .f32⟩
  | .hbm, ⟨127, _⟩ => ⟨S16384x16, .f32⟩
  | .local _ .vmem, ⟨0, _⟩ => ⟨S512x4096, .f32⟩
  | .local _ .vmem, ⟨1, _⟩ => ⟨S512x4096, .f32⟩
  | .local _ .vmem, ⟨2, _⟩ => ⟨S4096x64, .f32⟩
  | .local _ .vmem, ⟨3, _⟩ => ⟨S4096x64, .f32⟩
  | .local _ .vmem, ⟨4, _⟩ => ⟨S512x64, .f32⟩
  | .local _ .vmem, ⟨5, _⟩ => ⟨S512x64, .f32⟩
  | .local _ .vmem, ⟨6, _⟩ => ⟨S512x64, .f32⟩
  | _, _ => ⟨S16384x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_call2_cst : Ref sig .tc := ⟨.hbm, 91, rfl⟩
abbrev main_call2_v0 : Ref sig .tc := ⟨.hbm, 92, rfl⟩
abbrev main_v65 : Ref sig .tc := ⟨.hbm, 93, rfl⟩
abbrev main_v66 : Ref sig .tc := ⟨.hbm, 94, rfl⟩
abbrev main_c_12 : Ref sig .tc := ⟨.hbm, 95, rfl⟩
abbrev main_v67 : Ref sig .tc := ⟨.hbm, 96, rfl⟩
abbrev main_v68 : Ref sig .tc := ⟨.hbm, 97, rfl⟩
abbrev main_c_13 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_14 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_cst_15 : Ref sig .tc := ⟨.hbm, 114, rfl⟩
abbrev main_v83 : Ref sig .tc := ⟨.hbm, 115, rfl⟩
abbrev main_cst_16 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_cst_17 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  slices_S2x524288_S1x524288_0_0 : S2x524288.Slices ![0, 0] S1x524288
  shapeCasts_S1x524288_S524288 : S1x524288.ShapeCasts S524288
  concatenates_S524288_S16384_S540672_d0 : Shape.Concatenates [S524288, S16384] S540672 0
  slices_S2x524288_S1x524288_1_0 : S2x524288.Slices ![1, 0] S1x524288
  bcast_S_S540672 : S_.BroadcastsInDim S540672 (![] : Fin 0 → Fin S540672.rank)
  bcast_S_S16384 : S_.BroadcastsInDim S16384 (![] : Fin 0 → Fin S16384.rank)
  bcast_S540672_S540672x1_0 : S540672.BroadcastsInDim S540672x1 (![0] : Fin 1 → Fin S540672x1.rank)
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S512x4096_S512x4096_0_0 : ∀ a, (![0, 0] : Fin 2 → Nat) a + S512x4096.size a ≤ S512x4096.size a
  h_S512x4096 : 0 < S512x4096.numel
  bitsLt_bf16_f32 : FTy.bits .bf16 < FTy.bits .f32
  inb_S4096x64_S4096x64_0_0 : ∀ a, (![0, 0] : Fin 2 → Nat) a + S4096x64.size a ≤ S4096x64.size a
  h_S4096x64 : 0 < S4096x64.numel
  bcast_S540672x1_S540672x64_0_1 : S540672x1.BroadcastsInDim S540672x64 (![0, 1] : Fin 2 → Fin S540672x64.rank)
  bcast_S_S16384x64 : S_.BroadcastsInDim S16384x64 (![] : Fin 0 → Fin S16384x64.rank)
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  bcast_S540672x1_S540672x32_0_1 : S540672x1.BroadcastsInDim S540672x32 (![0, 1] : Fin 2 → Fin S540672x32.rank)
  bcast_S_S16384x32 : S_.BroadcastsInDim S16384x32 (![] : Fin 0 → Fin S16384x32.rank)
  bcast_S32_S1x32_1 : S32.BroadcastsInDim S1x32 (![1] : Fin 1 → Fin S1x32.rank)
  bcast_S1x32_S16384x32_0_1 : S1x32.BroadcastsInDim S16384x32 (![0, 1] : Fin 2 → Fin S16384x32.rank)
  bcast_S540672x1_S540672x16_0_1 : S540672x1.BroadcastsInDim S540672x16 (![0, 1] : Fin 2 → Fin S540672x16.rank)
  bcast_S_S16384x16 : S_.BroadcastsInDim S16384x16 (![] : Fin 0 → Fin S16384x16.rank)
  bcast_S16_S1x16_1 : S16.BroadcastsInDim S1x16 (![1] : Fin 1 → Fin S1x16.rank)
  bcast_S1x16_S16384x16_0_1 : S1x16.BroadcastsInDim S16384x16 (![0, 1] : Fin 2 → Fin S16384x16.rank)
  reducesTo_S16384x16_S16384_d1 : S16384x16.ReducesTo [1] S16384
  h_S_ : 0 < S_.numel
  bcast_S16384_S16384x1_0 : S16384.BroadcastsInDim S16384x1 (![0] : Fin 1 → Fin S16384x1.rank)
  bcast_S16384x1_S16384x16_0_1 : S16384x1.BroadcastsInDim S16384x16 (![0, 1] : Fin 2 → Fin S16384x16.rank)
  scatter_S16384_S540672x1_S540672_n_0_0_1_wf : ScatterDims.WF S16384 S540672x1 S540672 [] [0] [0] 1
  gather_S16384_S540672x1_S540672_n_0_n_n_0_1_1_wf : GatherDims.WF S16384 S540672x1 S540672 [] [0] [] [0] [] 1 ![1]
  dot_S512x4096_S4096x64_S512x64_1_0_0_1_n_n_wf : DotDims.WF S512x4096 S4096x64 S512x64 [1] [0] [0] [1] [] []
  gather_S16384x64_S540672x1_S540672x64_1_0_n_n_0_1_164_wf : GatherDims.WF S16384x64 S540672x1 S540672x64 [1] [0] [] [0] [] 1 ![1, 64]
  scatter_S16384x64_S540672x1_S540672x64_1_0_0_1_wf : ScatterDims.WF S16384x64 S540672x1 S540672x64 [1] [0] [0] 1
  dot_S16384x64_S64x32_S16384x32_1_0_0_1_n_n_wf : DotDims.WF S16384x64 S64x32 S16384x32 [1] [0] [0] [1] [] []
  gather_S16384x32_S540672x1_S540672x32_1_0_n_n_0_1_132_wf : GatherDims.WF S16384x32 S540672x1 S540672x32 [1] [0] [] [0] [] 1 ![1, 32]
  scatter_S16384x32_S540672x1_S540672x32_1_0_0_1_wf : ScatterDims.WF S16384x32 S540672x1 S540672x32 [1] [0] [0] 1
  dot_S16384x32_S32x16_S16384x16_1_0_0_1_n_n_wf : DotDims.WF S16384x32 S32x16 S16384x16 [1] [0] [0] [1] [] []
  gather_S16384x16_S540672x1_S540672x16_1_0_n_n_0_1_116_wf : GatherDims.WF S16384x16 S540672x1 S540672x16 [1] [0] [] [0] [] 1 ![1, 16]
  scatter_S16384x16_S540672x1_S540672x16_1_0_0_1_wf : ScatterDims.WF S16384x16 S540672x1 S540672x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S16384x16384.size a
  hwx0_0 : ∀ i : grid0.Coords, EltTy.bits .f32 = 32 ∨ (Rect.block (s := S16384x16384) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x64.size a ≤ S16384x64.size a
  hwx0_1 : ∀ i : grid0.Coords, EltTy.bits .f32 = 32 ∨ (Rect.block (s := S16384x64) S4096x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x64.size a ≤ S16384x64.size a
  hwx0_2 : ∀ i : grid0.Coords, EltTy.bits .f32 = 32 ∨ (Rect.block (s := S16384x64) S512x64.size (cc0_transform_2 i) (hinb0_2 i)).WholeWords (EltTy.packing .f32)

variable [Facts₀]

def scatter_S16384_S540672x1_S540672_n_0_0_1 : ScatterDims S16384 S540672x1 S540672 where
  updateWindowDims := []
  insertedWindowDims := [0]
  scatterDimsToOperandDims := [0]
  indexVectorDim := 1
  wf := scatter_S16384_S540672x1_S540672_n_0_0_1_wf
def gather_S16384_S540672x1_S540672_n_0_n_n_0_1_1 : GatherDims S16384 S540672x1 S540672 where
  offsetDims := []
  collapsedSliceDims := [0]
  operandBatchingDims := []
  startIndicesBatchingDims := []
  startIndexMap := [0]
  indexVectorDim := 1
  sliceSizes := ![1]
  wf := gather_S16384_S540672x1_S540672_n_0_n_n_0_1_1_wf
def dot_S512x4096_S4096x64_S512x64_1_0_0_1_n_n : DotDims S512x4096 S4096x64 S512x64 where
  lhsContracting := [1]
  rhsContracting := [0]
  lhsNonContracting := [0]
  rhsNonContracting := [1]
  lhsBatch := []
  rhsBatch := []
  wf := dot_S512x4096_S4096x64_S512x64_1_0_0_1_n_n_wf
def gather_S16384x64_S540672x1_S540672x64_1_0_n_n_0_1_164 : GatherDims S16384x64 S540672x1 S540672x64 where
  offsetDims := [1]
  collapsedSliceDims := [0]
  operandBatchingDims := []
  startIndicesBatchingDims := []
  startIndexMap := [0]
  indexVectorDim := 1
  sliceSizes := ![1, 64]
  wf := gather_S16384x64_S540672x1_S540672x64_1_0_n_n_0_1_164_wf
def scatter_S16384x64_S540672x1_S540672x64_1_0_0_1 : ScatterDims S16384x64 S540672x1 S540672x64 where
  updateWindowDims := [1]
  insertedWindowDims := [0]
  scatterDimsToOperandDims := [0]
  indexVectorDim := 1
  wf := scatter_S16384x64_S540672x1_S540672x64_1_0_0_1_wf
def dot_S16384x64_S64x32_S16384x32_1_0_0_1_n_n : DotDims S16384x64 S64x32 S16384x32 where
  lhsContracting := [1]
  rhsContracting := [0]
  lhsNonContracting := [0]
  rhsNonContracting := [1]
  lhsBatch := []
  rhsBatch := []
  wf := dot_S16384x64_S64x32_S16384x32_1_0_0_1_n_n_wf
def gather_S16384x32_S540672x1_S540672x32_1_0_n_n_0_1_132 : GatherDims S16384x32 S540672x1 S540672x32 where
  offsetDims := [1]
  collapsedSliceDims := [0]
  operandBatchingDims := []
  startIndicesBatchingDims := []
  startIndexMap := [0]
  indexVectorDim := 1
  sliceSizes := ![1, 32]
  wf := gather_S16384x32_S540672x1_S540672x32_1_0_n_n_0_1_132_wf
def scatter_S16384x32_S540672x1_S540672x32_1_0_0_1 : ScatterDims S16384x32 S540672x1 S540672x32 where
  updateWindowDims := [1]
  insertedWindowDims := [0]
  scatterDimsToOperandDims := [0]
  indexVectorDim := 1
  wf := scatter_S16384x32_S540672x1_S540672x32_1_0_0_1_wf
def dot_S16384x32_S32x16_S16384x16_1_0_0_1_n_n : DotDims S16384x32 S32x16 S16384x16 where
  lhsContracting := [1]
  rhsContracting := [0]
  lhsNonContracting := [0]
  rhsNonContracting := [1]
  lhsBatch := []
  rhsBatch := []
  wf := dot_S16384x32_S32x16_S16384x16_1_0_0_1_n_n_wf
def gather_S16384x16_S540672x1_S540672x16_1_0_n_n_0_1_116 : GatherDims S16384x16 S540672x1 S540672x16 where
  offsetDims := [1]
  collapsedSliceDims := [0]
  operandBatchingDims := []
  startIndicesBatchingDims := []
  startIndexMap := [0]
  indexVectorDim := 1
  sliceSizes := ![1, 16]
  wf := gather_S16384x16_S540672x1_S540672x16_1_0_n_n_0_1_116_wf
def scatter_S16384x16_S540672x1_S540672x16_1_0_0_1 : ScatterDims S16384x16 S540672x1 S540672x16 where
  updateWindowDims := [1]
  insertedWindowDims := [0]
  scatterDimsToOperandDims := [0]
  indexVectorDim := 1
  wf := scatter_S16384x16_S540672x1_S540672x16_1_0_0_1_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S4096x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v30) S512x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16384x16384 : Shape := ⟨2, ![16384, 16384]⟩
abbrev S2x524288 : Shape := ⟨2, ![2, 524288]⟩
abbrev S16384x64 : Shape := ⟨2, ![16384, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16384 : Shape := ⟨1, ![16384]⟩
abbrev S1x524288 : Shape := ⟨2, ![1, 524288]⟩
abbrev S524288 : Shape := ⟨1, ![524288]⟩
abbrev S540672 : Shape := ⟨1, ![540672]⟩
abbrev S_ : Shape := ⟨0, ![]⟩
abbrev S540672x1 : Shape := ⟨2, ![540672, 1]⟩
abbrev S540672x64 : Shape := ⟨2, ![540672, 64]⟩
abbrev S1x64 : Shape := ⟨2, ![1, 64]⟩
abbrev S16384x32 : Shape := ⟨2, ![16384, 32]⟩
abbrev S540672x32 : Shape := ⟨2, ![540672, 32]⟩
abbrev S1x32 : Shape := ⟨2, ![1, 32]⟩
abbrev S16384x16 : Shape := ⟨2, ![16384, 16]⟩
abbrev S540672x16 : Shape := ⟨2, ![540672, 16]⟩
abbrev S1x16 : Shape := ⟨2, ![1, 16]⟩
abbrev S16384x1 : Shape := ⟨2, ![16384, 1]⟩

abbrev nBuf : Space → Nat
  | .hbm => 128
  | .vmem => 0
  | .smem => 0
  | _ => 0

abbrev bufTy : (tb : Table) → Fin (tcTables nBuf tb) → BufTy
  | .hbm, ⟨0, _⟩ => ⟨S16384x16384, .f32⟩
  | .hbm, ⟨1, _⟩ => ⟨S2x524288, .i32⟩
  | .hbm, ⟨2, _⟩ => ⟨S16384x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S32x16, .f32⟩
  | .hbm, ⟨7, _⟩ => ⟨S16, .f32⟩
  | .hbm, ⟨8, _⟩ => ⟨S16384, .i32⟩
  | .hbm, ⟨9, _⟩ => ⟨S1x524288, .i32⟩
  | .hbm, ⟨10, _⟩ => ⟨S524288, .i32⟩
  | .hbm, ⟨11, _⟩ => ⟨S540672, .i32⟩
  | .hbm, ⟨12, _⟩ => ⟨S1x524288, .i32⟩
  | .hbm, ⟨13, _⟩ => ⟨S524288, .i32⟩
  | .hbm, ⟨14, _⟩ => ⟨S540672, .i32⟩
  | .hbm, ⟨15, _⟩ => ⟨S_, .f32⟩
  | .hbm, ⟨16, _⟩ => ⟨S540672, .f32⟩
  | .hbm, ⟨17, _⟩ => ⟨S_, .f32⟩
  | .hbm, ⟨18, _⟩ => ⟨S16384, .f32⟩
  | .hbm, ⟨19, _⟩ => ⟨S540672x1, .i32⟩
  | .hbm, ⟨20, _⟩ => ⟨S16384, .f32⟩
  | .hbm, ⟨21, _⟩ => ⟨S_, .f32⟩
  | .hbm, ⟨22, _⟩ => ⟨S16384, .f32⟩
  | .hbm, ⟨23, _⟩ => ⟨S16384, .i1⟩
  | .hbm, ⟨24, _⟩ => ⟨S16384, .f32⟩
  | .hbm, ⟨25, _⟩ => ⟨S_, .f32⟩
  | .hbm, ⟨26, _⟩ => ⟨S_, .f32⟩
  | .hbm, ⟨27, _⟩ => ⟨S16384, .f32⟩
  | .hbm, ⟨28, _⟩ => ⟨S16384, .f32⟩
  | .hbm, ⟨29, _⟩ => ⟨S_, .i32⟩
  | .hbm, ⟨30, _⟩ => ⟨S540672, .i32⟩
  | .hbm, ⟨31, _⟩ => ⟨S540672, .i1⟩
  | .hbm, ⟨32, _⟩ => ⟨S_, .i32⟩
  | .hbm, ⟨33, _⟩ => ⟨S540672, .i32⟩
  | .hbm, ⟨34, _⟩ => ⟨S540672, .i32⟩
  | .hbm, ⟨35, _⟩ => ⟨S540672, .i32⟩
  | .hbm, ⟨36, _⟩ => ⟨S540672x1, .i32⟩
  | .hbm, ⟨37, _⟩ => ⟨S540672, .f32⟩
  | .hbm, ⟨38, _⟩ => ⟨S_, .i32⟩
  | .hbm, ⟨39, _⟩ => ⟨S540672, .i32⟩
  | .hbm, ⟨40, _⟩ => ⟨S540672, .i1⟩
  | .hbm, ⟨41, _⟩ => ⟨S_, .i32⟩
  | .hbm, ⟨42, _⟩ => ⟨S540672, .i32⟩
  | .hbm, ⟨43, _⟩ => ⟨S540672, .i32⟩
  | .hbm, ⟨44, _⟩ => ⟨S540672, .i32⟩
  | .hbm, ⟨45, _⟩ => ⟨S540672x1, .i32⟩
  | .hbm, ⟨46, _⟩ => ⟨S540672, .f32⟩
  | .hbm, ⟨47, _⟩ => ⟨S540672, .f32⟩
  | .hbm, ⟨48, _⟩ => ⟨S16384x64, .f32⟩
  | .hbm, ⟨49, _⟩ => ⟨S_, .i32⟩
  | .hbm, ⟨50, _⟩ => ⟨S540672, .i32⟩
  | .hbm, ⟨51, _⟩ => ⟨S540672, .i1⟩
  | .hbm, ⟨52, _⟩ => ⟨S_, .i32⟩
  | .hbm, ⟨53, _⟩ => ⟨S540672, .i32⟩
  | .hbm, ⟨54, _⟩ => ⟨S540672, .i32⟩
  | .hbm, ⟨55, _⟩ => ⟨S540672, .i32⟩
  | .hbm, ⟨56, _⟩ => ⟨S540672x1, .i32⟩
  | .hbm, ⟨57, _⟩ => ⟨S540672x64, .f32⟩
  | .hbm, ⟨58, _⟩ => ⟨S540672x1, .f32⟩
  | .hbm, ⟨59, _⟩ => ⟨S540672x64, .f32⟩
  | .hbm, ⟨60, _⟩ => ⟨S540672x64, .f32⟩
  | .hbm, ⟨61, _⟩ => ⟨S_, .f32⟩
  | .hbm, ⟨62, _⟩ => ⟨S16384x64, .f32⟩
  | .hbm, ⟨63, _⟩ => ⟨S540672x1, .i32⟩
  | .hbm, ⟨64, _⟩ => ⟨S16384x64, .f32⟩
  | .hbm, ⟨65, _⟩ => ⟨S1x64, .f32⟩
  | .hbm, ⟨66, _⟩ => ⟨S16384x64, .f32⟩
  | .hbm, ⟨67, _⟩ => ⟨S16384x64, .f32⟩
  | .hbm, ⟨68, _⟩ => ⟨S_, .f32⟩
  | .hbm, ⟨69, _⟩ => ⟨S16384x64, .f32⟩
  | .hbm, ⟨70, _⟩ => ⟨S16384x64, .f32⟩
  | .hbm, ⟨71, _⟩ => ⟨S16384x32, .f32⟩
  | .hbm, ⟨72, _⟩ => ⟨S_, .i32⟩
  | .hbm, ⟨73, _⟩ => ⟨S540672, .i32⟩
  | .hbm, ⟨74, _⟩ => ⟨S540672, .i1⟩
  | .hbm, ⟨75, _⟩ => ⟨S_, .i32⟩
  | .hbm, ⟨76, _⟩ => ⟨S540672, .i32⟩
  | .hbm, ⟨77, _⟩ => ⟨S540672, .i32⟩
  | .hbm, ⟨78, _⟩ => ⟨S540672, .i32⟩
  | .hbm, ⟨79, _⟩ => ⟨S540672x1, .i32⟩
  | .hbm, ⟨80, _⟩ => ⟨S540672x32, .f32⟩
  | .hbm, ⟨81, _⟩ => ⟨S540672x1, .f32⟩
  | .hbm, ⟨82, _⟩ => ⟨S540672x32, .f32⟩
  | .hbm, ⟨83, _⟩ => ⟨S540672x32, .f32⟩
  | .hbm, ⟨84, _⟩ => ⟨S_, .f32⟩
  | .hbm, ⟨85, _⟩ => ⟨S16384x32, .f32⟩
  | .hbm, ⟨86, _⟩ => ⟨S540672x1, .i32⟩
  | .hbm, ⟨87, _⟩ => ⟨S16384x32, .f32⟩
  | .hbm, ⟨88, _⟩ => ⟨S1x32, .f32⟩
  | .hbm, ⟨89, _⟩ => ⟨S16384x32, .f32⟩
  | .hbm, ⟨90, _⟩ => ⟨S16384x32, .f32⟩
  | .hbm, ⟨91, _⟩ => ⟨S_, .f32⟩
  | .hbm, ⟨92, _⟩ => ⟨S16384x32, .f32⟩
  | .hbm, ⟨93, _⟩ => ⟨S16384x32, .f32⟩
  | .hbm, ⟨94, _⟩ => ⟨S16384x16, .f32⟩
  | .hbm, ⟨95, _⟩ => ⟨S_, .i32⟩
  | .hbm, ⟨96, _⟩ => ⟨S540672, .i32⟩
  | .hbm, ⟨97, _⟩ => ⟨S540672, .i1⟩
  | .hbm, ⟨98, _⟩ => ⟨S_, .i32⟩
  | .hbm, ⟨99, _⟩ => ⟨S540672, .i32⟩
  | .hbm, ⟨100, _⟩ => ⟨S540672, .i32⟩
  | .hbm, ⟨101, _⟩ => ⟨S540672, .i32⟩
  | .hbm, ⟨102, _⟩ => ⟨S540672x1, .i32⟩
  | .hbm, ⟨103, _⟩ => ⟨S540672x16, .f32⟩
  | .hbm, ⟨104, _⟩ => ⟨S540672x1, .f32⟩
  | .hbm, ⟨105, _⟩ => ⟨S540672x16, .f32⟩
  | .hbm, ⟨106, _⟩ => ⟨S540672x16, .f32⟩
  | .hbm, ⟨107, _⟩ => ⟨S_, .f32⟩
  | .hbm, ⟨108, _⟩ => ⟨S16384x16, .f32⟩
  | .hbm, ⟨109, _⟩ => ⟨S540672x1, .i32⟩
  | .hbm, ⟨110, _⟩ => ⟨S16384x16, .f32⟩
  | .hbm, ⟨111, _⟩ => ⟨S1x16, .f32⟩
  | .hbm, ⟨112, _⟩ => ⟨S16384x16, .f32⟩
  | .hbm, ⟨113, _⟩ => ⟨S16384x16, .f32⟩
  | .hbm, ⟨114, _⟩ => ⟨S_, .f32⟩
  | .hbm, ⟨115, _⟩ => ⟨S16384, .f32⟩
  | .hbm, ⟨116, _⟩ => ⟨S_, .f32⟩
  | .hbm, ⟨117, _⟩ => ⟨S16384, .f32⟩
  | .hbm, ⟨118, _⟩ => ⟨S16384, .f32⟩
  | .hbm, ⟨119, _⟩ => ⟨S16384x1, .f32⟩
  | .hbm, ⟨120, _⟩ => ⟨S16384x16, .f32⟩
  | .hbm, ⟨121, _⟩ => ⟨S16384x16, .f32⟩
  | .hbm, ⟨122, _⟩ => ⟨S16384x16, .f32⟩
  | .hbm, ⟨123, _⟩ => ⟨S_, .f32⟩
  | .hbm, ⟨124, _⟩ => ⟨S16384, .f32⟩
  | .hbm, ⟨125, _⟩ => ⟨S16384x1, .f32⟩
  | .hbm, ⟨126, _⟩ => ⟨S16384x16, .f32⟩
  | .hbm, ⟨127, _⟩ => ⟨S16384x16, .f32⟩
  | _, _ => ⟨S16384x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_call2_cst : Ref sig .tc := ⟨.hbm, 91, rfl⟩
abbrev main_call2_v0 : Ref sig .tc := ⟨.hbm, 92, rfl⟩
abbrev main_v65 : Ref sig .tc := ⟨.hbm, 93, rfl⟩
abbrev main_v66 : Ref sig .tc := ⟨.hbm, 94, rfl⟩
abbrev main_c_12 : Ref sig .tc := ⟨.hbm, 95, rfl⟩
abbrev main_v67 : Ref sig .tc := ⟨.hbm, 96, rfl⟩
abbrev main_v68 : Ref sig .tc := ⟨.hbm, 97, rfl⟩
abbrev main_c_13 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_14 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_cst_15 : Ref sig .tc := ⟨.hbm, 114, rfl⟩
abbrev main_v83 : Ref sig .tc := ⟨.hbm, 115, rfl⟩
abbrev main_cst_16 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_cst_17 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩

abbrev nD : Nat := 1
abbrev τ : Topo := Topo.v7x

variable {F : FTy → Type} [FloatOps F]

class Facts₀ : Prop where
  slices_S2x524288_S1x524288_0_0 : S2x524288.Slices ![0, 0] S1x524288
  shapeCasts_S1x524288_S524288 : S1x524288.ShapeCasts S524288
  concatenates_S524288_S16384_S540672_d0 : Shape.Concatenates [S524288, S16384] S540672 0
  slices_S2x524288_S1x524288_1_0 : S2x524288.Slices ![1, 0] S1x524288
  bcast_S_S540672 : S_.BroadcastsInDim S540672 (![] : Fin 0 → Fin S540672.rank)
  bcast_S_S16384 : S_.BroadcastsInDim S16384 (![] : Fin 0 → Fin S16384.rank)
  bcast_S540672_S540672x1_0 : S540672.BroadcastsInDim S540672x1 (![0] : Fin 1 → Fin S540672x1.rank)
  bcast_S540672x1_S540672x64_0_1 : S540672x1.BroadcastsInDim S540672x64 (![0, 1] : Fin 2 → Fin S540672x64.rank)
  bcast_S_S16384x64 : S_.BroadcastsInDim S16384x64 (![] : Fin 0 → Fin S16384x64.rank)
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  bcast_S540672x1_S540672x32_0_1 : S540672x1.BroadcastsInDim S540672x32 (![0, 1] : Fin 2 → Fin S540672x32.rank)
  bcast_S_S16384x32 : S_.BroadcastsInDim S16384x32 (![] : Fin 0 → Fin S16384x32.rank)
  bcast_S32_S1x32_1 : S32.BroadcastsInDim S1x32 (![1] : Fin 1 → Fin S1x32.rank)
  bcast_S1x32_S16384x32_0_1 : S1x32.BroadcastsInDim S16384x32 (![0, 1] : Fin 2 → Fin S16384x32.rank)
  bcast_S540672x1_S540672x16_0_1 : S540672x1.BroadcastsInDim S540672x16 (![0, 1] : Fin 2 → Fin S540672x16.rank)
  bcast_S_S16384x16 : S_.BroadcastsInDim S16384x16 (![] : Fin 0 → Fin S16384x16.rank)
  bcast_S16_S1x16_1 : S16.BroadcastsInDim S1x16 (![1] : Fin 1 → Fin S1x16.rank)
  bcast_S1x16_S16384x16_0_1 : S1x16.BroadcastsInDim S16384x16 (![0, 1] : Fin 2 → Fin S16384x16.rank)
  reducesTo_S16384x16_S16384_d1 : S16384x16.ReducesTo [1] S16384
  h_S_ : 0 < S_.numel
  bcast_S16384_S16384x1_0 : S16384.BroadcastsInDim S16384x1 (![0] : Fin 1 → Fin S16384x1.rank)
  bcast_S16384x1_S16384x16_0_1 : S16384x1.BroadcastsInDim S16384x16 (![0, 1] : Fin 2 → Fin S16384x16.rank)
  scatter_S16384_S540672x1_S540672_n_0_0_1_wf : ScatterDims.WF S16384 S540672x1 S540672 [] [0] [0] 1
  gather_S16384_S540672x1_S540672_n_0_n_n_0_1_1_wf : GatherDims.WF S16384 S540672x1 S540672 [] [0] [] [0] [] 1 ![1]
  dot_S16384x16384_S16384x64_S16384x64_1_0_0_1_n_n_wf : DotDims.WF S16384x16384 S16384x64 S16384x64 [1] [0] [0] [1] [] []
  gather_S16384x64_S540672x1_S540672x64_1_0_n_n_0_1_164_wf : GatherDims.WF S16384x64 S540672x1 S540672x64 [1] [0] [] [0] [] 1 ![1, 64]
  scatter_S16384x64_S540672x1_S540672x64_1_0_0_1_wf : ScatterDims.WF S16384x64 S540672x1 S540672x64 [1] [0] [0] 1
  dot_S16384x64_S64x32_S16384x32_1_0_0_1_n_n_wf : DotDims.WF S16384x64 S64x32 S16384x32 [1] [0] [0] [1] [] []
  gather_S16384x32_S540672x1_S540672x32_1_0_n_n_0_1_132_wf : GatherDims.WF S16384x32 S540672x1 S540672x32 [1] [0] [] [0] [] 1 ![1, 32]
  scatter_S16384x32_S540672x1_S540672x32_1_0_0_1_wf : ScatterDims.WF S16384x32 S540672x1 S540672x32 [1] [0] [0] 1
  dot_S16384x32_S32x16_S16384x16_1_0_0_1_n_n_wf : DotDims.WF S16384x32 S32x16 S16384x16 [1] [0] [0] [1] [] []
  gather_S16384x16_S540672x1_S540672x16_1_0_n_n_0_1_116_wf : GatherDims.WF S16384x16 S540672x1 S540672x16 [1] [0] [] [0] [] 1 ![1, 16]
  scatter_S16384x16_S540672x1_S540672x16_1_0_0_1_wf : ScatterDims.WF S16384x16 S540672x1 S540672x16 [1] [0] [0] 1

variable [Facts₀]

def scatter_S16384_S540672x1_S540672_n_0_0_1 : ScatterDims S16384 S540672x1 S540672 where
  updateWindowDims := []
  insertedWindowDims := [0]
  scatterDimsToOperandDims := [0]
  indexVectorDim := 1
  wf := scatter_S16384_S540672x1_S540672_n_0_0_1_wf
def gather_S16384_S540672x1_S540672_n_0_n_n_0_1_1 : GatherDims S16384 S540672x1 S540672 where
  offsetDims := []
  collapsedSliceDims := [0]
  operandBatchingDims := []
  startIndicesBatchingDims := []
  startIndexMap := [0]
  indexVectorDim := 1
  sliceSizes := ![1]
  wf := gather_S16384_S540672x1_S540672_n_0_n_n_0_1_1_wf
def dot_S16384x16384_S16384x64_S16384x64_1_0_0_1_n_n : DotDims S16384x16384 S16384x64 S16384x64 where
  lhsContracting := [1]
  rhsContracting := [0]
  lhsNonContracting := [0]
  rhsNonContracting := [1]
  lhsBatch := []
  rhsBatch := []
  wf := dot_S16384x16384_S16384x64_S16384x64_1_0_0_1_n_n_wf
def gather_S16384x64_S540672x1_S540672x64_1_0_n_n_0_1_164 : GatherDims S16384x64 S540672x1 S540672x64 where
  offsetDims := [1]
  collapsedSliceDims := [0]
  operandBatchingDims := []
  startIndicesBatchingDims := []
  startIndexMap := [0]
  indexVectorDim := 1
  sliceSizes := ![1, 64]
  wf := gather_S16384x64_S540672x1_S540672x64_1_0_n_n_0_1_164_wf
def scatter_S16384x64_S540672x1_S540672x64_1_0_0_1 : ScatterDims S16384x64 S540672x1 S540672x64 where
  updateWindowDims := [1]
  insertedWindowDims := [0]
  scatterDimsToOperandDims := [0]
  indexVectorDim := 1
  wf := scatter_S16384x64_S540672x1_S540672x64_1_0_0_1_wf
def dot_S16384x64_S64x32_S16384x32_1_0_0_1_n_n : DotDims S16384x64 S64x32 S16384x32 where
  lhsContracting := [1]
  rhsContracting := [0]
  lhsNonContracting := [0]
  rhsNonContracting := [1]
  lhsBatch := []
  rhsBatch := []
  wf := dot_S16384x64_S64x32_S16384x32_1_0_0_1_n_n_wf
def gather_S16384x32_S540672x1_S540672x32_1_0_n_n_0_1_132 : GatherDims S16384x32 S540672x1 S540672x32 where
  offsetDims := [1]
  collapsedSliceDims := [0]
  operandBatchingDims := []
  startIndicesBatchingDims := []
  startIndexMap := [0]
  indexVectorDim := 1
  sliceSizes := ![1, 32]
  wf := gather_S16384x32_S540672x1_S540672x32_1_0_n_n_0_1_132_wf
def scatter_S16384x32_S540672x1_S540672x32_1_0_0_1 : ScatterDims S16384x32 S540672x1 S540672x32 where
  updateWindowDims := [1]
  insertedWindowDims := [0]
  scatterDimsToOperandDims := [0]
  indexVectorDim := 1
  wf := scatter_S16384x32_S540672x1_S540672x32_1_0_0_1_wf
def dot_S16384x32_S32x16_S16384x16_1_0_0_1_n_n : DotDims S16384x32 S32x16 S16384x16 where
  lhsContracting := [1]
  rhsContracting := [0]
  lhsNonContracting := [0]
  rhsNonContracting := [1]
  lhsBatch := []
  rhsBatch := []
  wf := dot_S16384x32_S32x16_S16384x16_1_0_0_1_n_n_wf
def gather_S16384x16_S540672x1_S540672x16_1_0_n_n_0_1_116 : GatherDims S16384x16 S540672x1 S540672x16 where
  offsetDims := [1]
  collapsedSliceDims := [0]
  operandBatchingDims := []
  startIndicesBatchingDims := []
  startIndexMap := [0]
  indexVectorDim := 1
  sliceSizes := ![1, 16]
  wf := gather_S16384x16_S540672x1_S540672x16_1_0_n_n_0_1_116_wf
def scatter_S16384x16_S540672x1_S540672x16_1_0_0_1 : ScatterDims S16384x16 S540672x1 S540672x16 where
  updateWindowDims := [1]
  insertedWindowDims := [0]
  scatterDimsToOperandDims := [0]
  indexVectorDim := 1
  wf := scatter_S16384x16_S540672x1_S540672x16_1_0_0_1_wf

class Facts : Prop extends Facts₀ where

variable [Facts]
-- ==== Proof.K.Conds.lean ====
/-
  The two branch conditions of the matmul body, decided over the 32 x 4 grid, and the names of the memrefs the
  pipeline hands the body at a point.  A point t has coordinates (t / 4, t % 4): the second coordinate k walks the
  four column blocks of a row block.  The accumulator is reset where k = 0 and the output block is stored where k = 3.
-/
import proofs.«100252_j56049323213278_1_alg».proof.Proof.Gen.Kernel.Launch
import proofs.«100252_j56049323213278_1_alg».proof.Proof.Gen.Kernel.Skeleton
import proofs.«100252_j56049323213278_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The accumulator is reset: the body's first conditional, as a chain over the second grid coordinate. -/
abbrev cond0_0 (i : grid0.Coords) : Prop := (Scalar.cmpi .ne (Scalar.extui (Scalar.cmpi .eq (BitVec.ofNat 32 (i 1).val) 0#32)) 0#32) = 1#1
/-- It holds exactly at the points with k = 0. -/
theorem hcond0_0 : ∀ t : Fin cfg0.N, cond0_0 (grid0.coords t) ↔ t.val % 4 = 0 :=
  (by decide +kernel : ∀ t : Fin grid0.N, cond0_0 (grid0.coords t) ↔ t.val % 4 = 0)

/-- The output block is stored: the body's second conditional. -/
abbrev cond0_1 (i : grid0.Coords) : Prop := k0_cond2 i = 1#1
/-- It holds exactly at the points with k = 3. -/
theorem hcond0_1 : ∀ t : Fin cfg0.N, cond0_1 (grid0.coords t) ↔ t.val % 4 = 3 :=
  (by decide +kernel : ∀ t : Fin grid0.N, cond0_1 (grid0.coords t) ↔ t.val % 4 = 3)

/-- The input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
/-- Where k = 0 the body stores nothing into the output window, and its block is not written back. -/
theorem idleAt0_2_A : ∀ t : Fin cfg0.N, cond0_0 (grid0.coords t) → ¬cond0_1 (grid0.coords t) → cfg0.idle 2 (grid0.coords t) = true := by decide +kernel
theorem noFlush0_2_A : ∀ t : Fin cfg0.N, cond0_0 (grid0.coords t) → ¬cond0_1 (grid0.coords t) → (cfg0.win 2).flush t = false := by decide +kernel
/-- The same where k is 1 or 2. -/
theorem idleAt0_2_B : ∀ t : Fin cfg0.N, ¬cond0_0 (grid0.coords t) → ¬cond0_1 (grid0.coords t) → cfg0.idle 2 (grid0.coords t) = true := by decide +kernel
theorem noFlush0_2_B : ∀ t : Fin cfg0.N, ¬cond0_0 (grid0.coords t) → ¬cond0_1 (grid0.coords t) → (cfg0.win 2).flush t = false := by decide +kernel
/-- Where k = 3 the output window is live. -/
theorem liveAt0_2_C : ∀ t : Fin cfg0.N, ¬cond0_0 (grid0.coords t) → cond0_1 (grid0.coords t) → cfg0.idle 2 (grid0.coords t) = false := by decide +kernel

/-- One staging buffer of the output window, through which its contents are stated. -/
abbrev VO0_2 : View sig .tc .vmem S512x64 .f32 := (Memref.whole cc0_stg2_0 : Memref sig .tc .vmem S512x64 .f32).view
/-- Each window's current staging memref at point `t`, as the pipeline passes it, and its wholeness. -/
abbrev ms0_0 (t : Fin cfg0.N) : Memref sig .tc .vmem S512x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x64 .f32 := win0_2.stage (cfg0.slots t 2)
abbrev hs0_2 (t : Fin cfg0.N) : (ms0_2 t).IsWhole := hstage0_2 ((cfg0.slots t 2).cast nbuf0_2)
/-- The accumulator: a whole scoped buffer of the kernel's own, carried from point to point. -/
abbrev scM0_0 : Memref sig .tc .vmem S512x64 .f32 := Memref.whole cc0_scratch0
abbrev VS0_0 : View sig .tc .vmem S512x64 .f32 := scM0_0.view

/-- The region's invariant with the accumulator as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Fr

end
-- ==== Proof.K.RunA.lean ====
/-
  The body at a point with k = 0, run whole.  The accumulator is first overwritten with zeros, then read back and
  the product of the two input blocks added to it; the output window is not touched.  The stores into the
  accumulator are recorded as a list of pieces, found by running the body.
-/
import proofs.«100252_j56049323213278_1_alg».proof.Proof.K.Conds

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- Case k = 0: from the two input blocks `x0`, `x1`, the output buffer at any contents `xi2` (handed back as found)
    and the accumulator at anything, the body runs to a state with the inputs and the output buffer unchanged and the
    accumulator holding its pieces `LS0`. -/
noncomputable def kernelRun0_A (c : Dev nD) (i : grid0.Coords) (arg2 : Memref sig .tc .vmem S512x4096 .f32) (harg2 : arg2.IsWhole) (arg3 : Memref sig .tc .vmem S4096x64 .f32) (harg3 : arg3.IsWhole) (arg4 : Memref sig .tc .vmem S512x64 .f32) (harg4 : arg4.IsWhole) (arg5 : Memref sig .tc .vmem S512x64 .f32) (harg5 : arg5.IsWhole) (hc0 : cond0_0 i) (hc1 : ¬cond0_1 i)
    (x0 : Vec F S512x4096 .f32) (x1 : Vec F S4096x64 .f32) :
    Σ' (L2 : List (View.Piece (Elt F) S512x64 .f32)), { LS0 : List (View.Piece (Elt F) S512x64 .f32) //
      ∀ (xi2 : Vec F S512x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__matmul_kernel i arg2 harg2 arg3 harg3 arg4 harg4 arg5 harg5) K } := by
  refine ⟨[], ?_, fun xi2 E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Fr

end
-- ==== Proof.K.RunB.lean ====
/-
  The body at a point with k = 1 or k = 2, run whole.  The accumulator, found at what the point before left, is read
  and the product of the two input blocks added to it; the output window is not touched.
-/
import proofs.«100252_j56049323213278_1_alg».proof.Proof.K.RunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- Case k ∈ {1, 2}: from the input blocks `x0`, `x1`, the output buffer at any contents `xi2` and the accumulator at
    `xs0`, the body runs to a state with the inputs and the output buffer unchanged and the accumulator holding its
    pieces `LS0`. -/
noncomputable def kernelRun0_B (c : Dev nD) (i : grid0.Coords) (arg2 : Memref sig .tc .vmem S512x4096 .f32) (harg2 : arg2.IsWhole) (arg3 : Memref sig .tc .vmem S4096x64 .f32) (harg3 : arg3.IsWhole) (arg4 : Memref sig .tc .vmem S512x64 .f32) (harg4 : arg4.IsWhole) (arg5 : Memref sig .tc .vmem S512x64 .f32) (harg5 : arg5.IsWhole) (hc0 : ¬cond0_0 i) (hc1 : ¬cond0_1 i)
    (x0 : Vec F S512x4096 .f32) (x1 : Vec F S4096x64 .f32) (xs0 : Vec F S512x64 .f32) :
    Σ' (L2 : List (View.Piece (Elt F) S512x64 .f32)), { LS0 : List (View.Piece (Elt F) S512x64 .f32) //
      ∀ (xi2 : Vec F S512x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__matmul_kernel i arg2 harg2 arg3 harg3 arg4 harg4 arg5 harg5) K } := by
  refine ⟨[], ?_, fun xi2 E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2
    obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Fr

end
-- ==== Proof.K.RunC.lean ====
/-
  The body at a point with k = 3, run whole.  The accumulator is read and the last product added; the finished
  accumulator is then read once more and stored, whole, into the output window's buffer.
-/
import proofs.«100252_j56049323213278_1_alg».proof.Proof.K.RunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- Case k = 3: from the input blocks `x0`, `x1`, the output buffer at anything and the accumulator at `xs0`, the body
    runs to a state with the inputs unchanged, the output buffer holding its pieces `L2` and the accumulator its
    pieces `LS0`. -/
noncomputable def kernelRun0_C (c : Dev nD) (i : grid0.Coords) (arg2 : Memref sig .tc .vmem S512x4096 .f32) (harg2 : arg2.IsWhole) (arg3 : Memref sig .tc .vmem S4096x64 .f32) (harg3 : arg3.IsWhole) (arg4 : Memref sig .tc .vmem S512x64 .f32) (harg4 : arg4.IsWhole) (arg5 : Memref sig .tc .vmem S512x64 .f32) (harg5 : arg5.IsWhole) (hc0 : ¬cond0_0 i) (hc1 : cond0_1 i)
    (x0 : Vec F S512x4096 .f32) (x1 : Vec F S4096x64 .f32) (xs0 : Vec F S512x64 .f32) :
    Σ' (L2 : List (View.Piece (Elt F) S512x64 .f32)), { LS0 : List (View.Piece (Elt F) S512x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__matmul_kernel i arg2 harg2 arg3 harg3 arg4 harg4 arg5 harg5) K } := by
  refine ⟨?_, ?_, fun E K => ?run⟩
  case run =>
    simp only [cc0__matmul_kernel_eq_skeleton]; unfold cc0__matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1
    obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Fr

end
-- ==== Proof.K.Shared.lean ====
/-
  The program around its one matrix product.  Forty host lines come before the product (they build the edge lists
  and the degree normalisation from the integer argument) and seventy-nine after it (the three message-passing
  layers and the softmax).  None of them writes an argument array, and the later ones write no array the product
  reads or produces; so the arguments end as they began, and the product finds its two operands as launched.
  Also here: the block of each window at a grid point, read off the array as the product finds it.
-/
import proofs.«100252_j56049323213278_1_alg».proof.Proof.K.Conds

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the product -/

/-- The stretches of host lines before the product, -/
abbrev opsB : List (List (HloOp τ sig (Elt F))) := [hostOps0, hostOps0_1, hostOps0_2]
/-- and after it. -/
abbrev opsA : List (List (HloOp τ sig (Elt F))) := [hostOps1, hostOps1_1, hostOps1_2, hostOps1_3, hostOps1_4]

/-- A core's buffer contents when the product starts: the launch contents after the earlier host lines. -/
abbrev V0 (c : Dev nD) : Valuation τ sig (Elt F) := StableHlo.after (List.flatten [hostOps0, hostOps0_1, hostOps0_2]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor

/-- @main is the earlier lines, the product, the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((opsA (F := F)).map StableHlo.seq)) :=
  Pipeline.hmain_around cfgs 0 defs₀ 𝒱₀ m main [hostOps0, hostOps0_1, hostOps0_2] [hostOps1, hostOps1_1, hostOps1_2, hostOps1_3, hostOps1_4]
    (by simp only [List.Forall]; exact ⟨hostOps0_sub, hostOps0_1_sub, hostOps0_2_sub⟩)
    (by simp only [List.Forall]; exact ⟨hostOps0_fresh, hostOps0_1_fresh, hostOps0_2_fresh⟩) main_chain

/-- The later lines touch unscoped TensorCore buffers only. -/
theorem sfx_sub : ∀ ops ∈ (opsA : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [opsA, List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
/-- They allocate nothing. -/
theorem sfx_fresh : ∀ ops ∈ (opsA : List (List (HloOp τ sig (Elt F)))), ∀ op ∈ ops, op.fresh = ∅ := by
  intro ops hops op hop
  simp only [opsA, List.mem_cons, List.mem_nil_iff, or_false] at hops
  rcases hops with rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop

set_option maxHeartbeats 1000000 in
theorem hostOps1_keeps : (hostOps1 : List (HloOp τ sig (Elt F))).Forall fun op => ∀ w, Proc.devRef .tc (Pipeline.arrRef spec0 w) ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
set_option maxHeartbeats 1000000 in
theorem hostOps1_1_keeps : (hostOps1_1 : List (HloOp τ sig (Elt F))).Forall fun op => ∀ w, Proc.devRef .tc (Pipeline.arrRef spec0 w) ∉ op.writes := by
  simp only [hostOps1_1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
set_option maxHeartbeats 1000000 in
theorem hostOps1_2_keeps : (hostOps1_2 : List (HloOp τ sig (Elt F))).Forall fun op => ∀ w, Proc.devRef .tc (Pipeline.arrRef spec0 w) ∉ op.writes := by
  simp only [hostOps1_2, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
set_option maxHeartbeats 1000000 in
theorem hostOps1_3_keeps : (hostOps1_3 : List (HloOp τ sig (Elt F))).Forall fun op => ∀ w, Proc.devRef .tc (Pipeline.arrRef spec0 w) ∉ op.writes := by
  simp only [hostOps1_3, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
set_option maxHeartbeats 1000000 in
theorem hostOps1_4_keeps : (hostOps1_4 : List (HloOp τ sig (Elt F))).Forall fun op => ∀ w, Proc.devRef .tc (Pipeline.arrRef spec0 w) ∉ op.writes := by
  simp only [hostOps1_4, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))

/-- And they write neither operand of the product nor its result array. -/
theorem sfx_keeps : ∀ ops ∈ (opsA : List (List (HloOp τ sig (Elt F)))), ∀ op ∈ ops,
    ∀ w, Proc.devRef .tc (Pipeline.arrRef spec0 w) ∉ op.writes := by
  intro ops hops op hop
  simp only [opsA, List.mem_cons, List.mem_nil_iff, or_false] at hops
  rcases hops with rfl | rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop
  · exact (List.forall_iff_forall_mem.mp hostOps1_4_keeps) op hop

set_option maxHeartbeats 1000000 in
/-- No host line before the product writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 1000000 in
/-- No host line before the product writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 1000000 in
/-- No host line before the product writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 1000000 in
/-- No host line before the product writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 1000000 in
/-- No host line before the product writes argument 4. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 1000000 in
/-- No host line before the product writes argument 5. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 1000000 in
/-- No host line before the product writes argument 6. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 1000000 in
/-- No host line before the product writes argument 7. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 2000000 in
/-- No host line after the product writes argument 1, and it is no array of the product. -/
theorem W_main_arg1 (dats : (p : Fin _) → (c : Dev nD) → Dat τ (Elt F) Unit ℕ (UR sig nD τ) ℕ (cfgs p) c) (c : Dev nD) :
    Pipeline.afterTail₀ cfgs dats 0 (V0 m) opsA c main_arg1 = m ((c : Thread nD τ).loc main_arg1) := by
  unfold Pipeline.afterTail₀
  rw [StableHlo.after_of_forall_not_mem (b := Proc.devRef .tc main_arg1) _ _ (List.forall_iff_forall_mem.mp (by
      simp only [opsA, hostOps1, hostOps1_1, hostOps1_2, hostOps1_3, hostOps1_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

set_option maxHeartbeats 2000000 in
/-- No host line after the product writes argument 3, and it is no array of the product. -/
theorem W_main_arg3 (dats : (p : Fin _) → (c : Dev nD) → Dat τ (Elt F) Unit ℕ (UR sig nD τ) ℕ (cfgs p) c) (c : Dev nD) :
    Pipeline.afterTail₀ cfgs dats 0 (V0 m) opsA c main_arg3 = m ((c : Thread nD τ).loc main_arg3) := by
  unfold Pipeline.afterTail₀
  rw [StableHlo.after_of_forall_not_mem (b := Proc.devRef .tc main_arg3) _ _ (List.forall_iff_forall_mem.mp (by
      simp only [opsA, hostOps1, hostOps1_1, hostOps1_2, hostOps1_3, hostOps1_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

set_option maxHeartbeats 2000000 in
/-- No host line after the product writes argument 4, and it is no array of the product. -/
theorem W_main_arg4 (dats : (p : Fin _) → (c : Dev nD) → Dat τ (Elt F) Unit ℕ (UR sig nD τ) ℕ (cfgs p) c) (c : Dev nD) :
    Pipeline.afterTail₀ cfgs dats 0 (V0 m) opsA c main_arg4 = m ((c : Thread nD τ).loc main_arg4) := by
  unfold Pipeline.afterTail₀
  rw [StableHlo.after_of_forall_not_mem (b := Proc.devRef .tc main_arg4) _ _ (List.forall_iff_forall_mem.mp (by
      simp only [opsA, hostOps1, hostOps1_1, hostOps1_2, hostOps1_3, hostOps1_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

set_option maxHeartbeats 2000000 in
/-- No host line after the product writes argument 5, and it is no array of the product. -/
theorem W_main_arg5 (dats : (p : Fin _) → (c : Dev nD) → Dat τ (Elt F) Unit ℕ (UR sig nD τ) ℕ (cfgs p) c) (c : Dev nD) :
    Pipeline.afterTail₀ cfgs dats 0 (V0 m) opsA c main_arg5 = m ((c : Thread nD τ).loc main_arg5) := by
  unfold Pipeline.afterTail₀
  rw [StableHlo.after_of_forall_not_mem (b := Proc.devRef .tc main_arg5) _ _ (List.forall_iff_forall_mem.mp (by
      simp only [opsA, hostOps1, hostOps1_1, hostOps1_2, hostOps1_3, hostOps1_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

set_option maxHeartbeats 2000000 in
/-- No host line after the product writes argument 6, and it is no array of the product. -/
theorem W_main_arg6 (dats : (p : Fin _) → (c : Dev nD) → Dat τ (Elt F) Unit ℕ (UR sig nD τ) ℕ (cfgs p) c) (c : Dev nD) :
    Pipeline.afterTail₀ cfgs dats 0 (V0 m) opsA c main_arg6 = m ((c : Thread nD τ).loc main_arg6) := by
  unfold Pipeline.afterTail₀
  rw [StableHlo.after_of_forall_not_mem (b := Proc.devRef .tc main_arg6) _ _ (List.forall_iff_forall_mem.mp (by
      simp only [opsA, hostOps1, hostOps1_1, hostOps1_2, hostOps1_3, hostOps1_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

set_option maxHeartbeats 2000000 in
/-- No host line after the product writes argument 7, and it is no array of the product. -/
theorem W_main_arg7 (dats : (p : Fin _) → (c : Dev nD) → Dat τ (Elt F) Unit ℕ (UR sig nD τ) ℕ (cfgs p) c) (c : Dev nD) :
    Pipeline.afterTail₀ cfgs dats 0 (V0 m) opsA c main_arg7 = m ((c : Thread nD τ).loc main_arg7) := by
  unfold Pipeline.afterTail₀
  rw [StableHlo.after_of_forall_not_mem (b := Proc.devRef .tc main_arg7) _ _ (List.forall_iff_forall_mem.mp (by
      simp only [opsA, hostOps1, hostOps1_1, hostOps1_2, hostOps1_3, hostOps1_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

/-! ## The windows' blocks -/

/-- Window `w`'s block at point `t`, read off its array as the product finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The left operand's staging buffer holds its block at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The right operand's staging buffer holds its block at every point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The arguments end unchanged -/

/-- From a run to the launch's post, for any proof data whose arrays are the entry contents: every argument array ends
    at its launch contents — the two operands because an input window's array is never written, the others because
    no line and no window touches them. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) opsA))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨
    ((h c).1 0).trans (((dats 0 c).arrAt_in 0 rfl _).trans ((hA c 0).trans (V_main_arg0 m c))),
    ((h c).2 main_arg1 (Pipeline.mem_restRefs_of main_arg1 (by decide) (by decide))).trans (W_main_arg1 m dats c),
    ((h c).1 1).trans (((dats 0 c).arrAt_in 1 rfl _).trans ((hA c 1).trans (V_main_arg2 m c))),
    ((h c).2 main_arg3 (Pipeline.mem_restRefs_of main_arg3 (by decide) (by decide))).trans (W_main_arg3 m dats c),
    ((h c).2 main_arg4 (Pipeline.mem_restRefs_of main_arg4 (by decide) (by decide))).trans (W_main_arg4 m dats c),
    ((h c).2 main_arg5 (Pipeline.mem_restRefs_of main_arg5 (by decide) (by decide))).trans (W_main_arg5 m dats c),
    ((h c).2 main_arg6 (Pipeline.mem_restRefs_of main_arg6 (by decide) (by decide))).trans (W_main_arg6 m dats c),
    ((h c).2 main_arg7 (Pipeline.mem_restRefs_of main_arg7 (by decide) (by decide))).trans (W_main_arg7 m dats c)⟩) h

end Cert.Kernel.Fr

end
-- ==== Proof.K.Frame.lean ====
/-
  The frame of the program: it runs to the end, nothing faults, and the argument arrays end as they began.
  The product's body is run once per case of its two conditionals (k = 0; k = 1 or 2; k = 3).  What the accumulator
  holds after each grid point is defined by recursion on the point: the case's stores read back, over what the
  point before left.  The output block is written only where k = 3 and written back to its array only there.
  With this as the proof data of the pipeline the launch theorem for a region between host lines gives the run.
-/
import proofs.«100252_j56049323213278_1_alg».proof.Proof.K.RunC
import proofs.«100252_j56049323213278_1_alg».proof.Proof.K.Shared

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What case A leaves in the output buffer: its stores read back (none: a placeholder nothing consults, the window being idle and not written back there). -/
def out0_A_2 (c : Dev nD) (i : grid0.Coords) (arg2 : Memref sig .tc .vmem S512x4096 .f32) (harg2 : arg2.IsWhole) (arg3 : Memref sig .tc .vmem S4096x64 .f32) (harg3 : arg3.IsWhole) (arg4 : Memref sig .tc .vmem S512x64 .f32) (harg4 : arg4.IsWhole) (arg5 : Memref sig .tc .vmem S512x64 .f32) (harg5 : arg5.IsWhole) (hc0 : cond0_0 i) (hc1 : ¬cond0_1 i)
    (x0 : Vec F S512x4096 .f32) (x1 : Vec F S4096x64 .f32) : Vec F S512x64 .f32 :=
  VO0_2.read (Elt F) (VO0_2.writes (Elt F) VO0_2.junk (kernelRun0_A c i arg2 harg2 arg3 harg3 arg4 harg4 arg5 harg5 hc0 hc1 x0 x1).1)

/-- At a point of case A the stores into the accumulator tile it. -/
theorem scover0_A_0 (c : Dev nD) (i : grid0.Coords) (arg2 : Memref sig .tc .vmem S512x4096 .f32) (harg2 : arg2.IsWhole) (arg3 : Memref sig .tc .vmem S4096x64 .f32) (harg3 : arg3.IsWhole) (arg4 : Memref sig .tc .vmem S512x64 .f32) (harg4 : arg4.IsWhole) (arg5 : Memref sig .tc .vmem S512x64 .f32) (harg5 : arg5.IsWhole) (hc0 : cond0_0 i) (hc1 : ¬cond0_1 i)
    (x0 : Vec F S512x4096 .f32) (x1 : Vec F S4096x64 .f32) (y : S512x64.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S512x64.size (by sl_kernel_rfl) y

/-- What case A leaves in the accumulator: its stores read back. -/
def sout0_A_0 (c : Dev nD) (i : grid0.Coords) (arg2 : Memref sig .tc .vmem S512x4096 .f32) (harg2 : arg2.IsWhole) (arg3 : Memref sig .tc .vmem S4096x64 .f32) (harg3 : arg3.IsWhole) (arg4 : Memref sig .tc .vmem S512x64 .f32) (harg4 : arg4.IsWhole) (arg5 : Memref sig .tc .vmem S512x64 .f32) (harg5 : arg5.IsWhole) (hc0 : cond0_0 i) (hc1 : ¬cond0_1 i)
    (x0 : Vec F S512x4096 .f32) (x1 : Vec F S4096x64 .f32) : Vec F S512x64 .f32 :=
  VS0_0.read (Elt F) (VS0_0.writes (Elt F) VS0_0.junk (kernelRun0_A c i arg2 harg2 arg3 harg3 arg4 harg4 arg5 harg5 hc0 hc1 x0 x1).2.1)

/-- What case B leaves in the output buffer: its stores read back (none: a placeholder nothing consults, the window being idle and not written back there). -/
def out0_B_2 (c : Dev nD) (i : grid0.Coords) (arg2 : Memref sig .tc .vmem S512x4096 .f32) (harg2 : arg2.IsWhole) (arg3 : Memref sig .tc .vmem S4096x64 .f32) (harg3 : arg3.IsWhole) (arg4 : Memref sig .tc .vmem S512x64 .f32) (harg4 : arg4.IsWhole) (arg5 : Memref sig .tc .vmem S512x64 .f32) (harg5 : arg5.IsWhole) (hc0 : ¬cond0_0 i) (hc1 : ¬cond0_1 i)
    (x0 : Vec F S512x4096 .f32) (x1 : Vec F S4096x64 .f32) (xs0 : Vec F S512x64 .f32) : Vec F S512x64 .f32 :=
  VO0_2.read (Elt F) (VO0_2.writes (Elt F) VO0_2.junk (kernelRun0_B c i arg2 harg2 arg3 harg3 arg4 harg4 arg5 harg5 hc0 hc1 x0 x1 xs0).1)

/-- At a point of case B the stores into the accumulator tile it. -/
theorem scover0_B_0 (c : Dev nD) (i : grid0.Coords) (arg2 : Memref sig .tc .vmem S512x4096 .f32) (harg2 : arg2.IsWhole) (arg3 : Memref sig .tc .vmem S4096x64 .f32) (harg3 : arg3.IsWhole) (arg4 : Memref sig .tc .vmem S512x64 .f32) (harg4 : arg4.IsWhole) (arg5 : Memref sig .tc .vmem S512x64 .f32) (harg5 : arg5.IsWhole) (hc0 : ¬cond0_0 i) (hc1 : ¬cond0_1 i)
    (x0 : Vec F S512x4096 .f32) (x1 : Vec F S4096x64 .f32) (xs0 : Vec F S512x64 .f32) (y : S512x64.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S512x64.size (by sl_kernel_rfl) y

/-- What case B leaves in the accumulator: its stores read back. -/
def sout0_B_0 (c : Dev nD) (i : grid0.Coords) (arg2 : Memref sig .tc .vmem S512x4096 .f32) (harg2 : arg2.IsWhole) (arg3 : Memref sig .tc .vmem S4096x64 .f32) (harg3 : arg3.IsWhole) (arg4 : Memref sig .tc .vmem S512x64 .f32) (harg4 : arg4.IsWhole) (arg5 : Memref sig .tc .vmem S512x64 .f32) (harg5 : arg5.IsWhole) (hc0 : ¬cond0_0 i) (hc1 : ¬cond0_1 i)
    (x0 : Vec F S512x4096 .f32) (x1 : Vec F S4096x64 .f32) (xs0 : Vec F S512x64 .f32) : Vec F S512x64 .f32 :=
  VS0_0.read (Elt F) (VS0_0.writes (Elt F) VS0_0.junk (kernelRun0_B c i arg2 harg2 arg3 harg3 arg4 harg4 arg5 harg5 hc0 hc1 x0 x1 xs0).2.1)

/-- At a point of case C the stores into the output buffer tile it. -/
theorem cover0_C_2 (c : Dev nD) (i : grid0.Coords) (arg2 : Memref sig .tc .vmem S512x4096 .f32) (harg2 : arg2.IsWhole) (arg3 : Memref sig .tc .vmem S4096x64 .f32) (harg3 : arg3.IsWhole) (arg4 : Memref sig .tc .vmem S512x64 .f32) (harg4 : arg4.IsWhole) (arg5 : Memref sig .tc .vmem S512x64 .f32) (harg5 : arg5.IsWhole) (hc0 : ¬cond0_0 i) (hc1 : cond0_1 i)
    (x0 : Vec F S512x4096 .f32) (x1 : Vec F S4096x64 .f32) (xs0 : Vec F S512x64 .f32) (y : S512x64.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S512x64.size (by sl_kernel_rfl) y

/-- What case C leaves in the output buffer: its stores read back. -/
def out0_C_2 (c : Dev nD) (i : grid0.Coords) (arg2 : Memref sig .tc .vmem S512x4096 .f32) (harg2 : arg2.IsWhole) (arg3 : Memref sig .tc .vmem S4096x64 .f32) (harg3 : arg3.IsWhole) (arg4 : Memref sig .tc .vmem S512x64 .f32) (harg4 : arg4.IsWhole) (arg5 : Memref sig .tc .vmem S512x64 .f32) (harg5 : arg5.IsWhole) (hc0 : ¬cond0_0 i) (hc1 : cond0_1 i)
    (x0 : Vec F S512x4096 .f32) (x1 : Vec F S4096x64 .f32) (xs0 : Vec F S512x64 .f32) : Vec F S512x64 .f32 :=
  VO0_2.read (Elt F) (VO0_2.writes (Elt F) VO0_2.junk (kernelRun0_C c i arg2 harg2 arg3 harg3 arg4 harg4 arg5 harg5 hc0 hc1 x0 x1 xs0).1)

/-- At a point of case C the stores into the accumulator tile it. -/
theorem scover0_C_0 (c : Dev nD) (i : grid0.Coords) (arg2 : Memref sig .tc .vmem S512x4096 .f32) (harg2 : arg2.IsWhole) (arg3 : Memref sig .tc .vmem S4096x64 .f32) (harg3 : arg3.IsWhole) (arg4 : Memref sig .tc .vmem S512x64 .f32) (harg4 : arg4.IsWhole) (arg5 : Memref sig .tc .vmem S512x64 .f32) (harg5 : arg5.IsWhole) (hc0 : ¬cond0_0 i) (hc1 : cond0_1 i)
    (x0 : Vec F S512x4096 .f32) (x1 : Vec F S4096x64 .f32) (xs0 : Vec F S512x64 .f32) (y : S512x64.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S512x64.size (by sl_kernel_rfl) y

/-- What case C leaves in the accumulator: its stores read back. -/
def sout0_C_0 (c : Dev nD) (i : grid0.Coords) (arg2 : Memref sig .tc .vmem S512x4096 .f32) (harg2 : arg2.IsWhole) (arg3 : Memref sig .tc .vmem S4096x64 .f32) (harg3 : arg3.IsWhole) (arg4 : Memref sig .tc .vmem S512x64 .f32) (harg4 : arg4.IsWhole) (arg5 : Memref sig .tc .vmem S512x64 .f32) (harg5 : arg5.IsWhole) (hc0 : ¬cond0_0 i) (hc1 : cond0_1 i)
    (x0 : Vec F S512x4096 .f32) (x1 : Vec F S4096x64 .f32) (xs0 : Vec F S512x64 .f32) : Vec F S512x64 .f32 :=
  VS0_0.read (Elt F) (VS0_0.writes (Elt F) VS0_0.junk (kernelRun0_C c i arg2 harg2 arg3 harg3 arg4 harg4 arg5 harg5 hc0 hc1 x0 x1 xs0).2.1)

/-! ## What the buffers hold after each point -/

/-- After the body at position `n`: the output buffer (first) and the accumulator (second).  The case is the one
    k = n % 4 selects; cases B and C start from what position `n - 1` left in the accumulator. -/
def outsAt0 (c : Dev nD) : (n : ℕ) → n < cfg0.N → Vec F S512x64 .f32 × Vec F S512x64 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩))
  | n + 1, hn =>
    if h0 : (n + 1) % 4 = 0 then
      if h1 : (n + 1) % 4 = 3 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩))
    else
      if h1 : (n + 1) % 4 = 3 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2)

theorem outsAt0_A (c : Dev nD) (t : Fin cfg0.N) (h0 : t.val % 4 = 0) (h1 : ¬t.val % 4 = 3) :
    outsAt0 m c t.val t.isLt = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t), sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 m c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 m c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the accumulator at anything; afterwards at what
    the point before left in it; the generator register at some state throughout. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The arrays as the product finds them; after the body at point `t` each operand's buffer at its block and the
    output's at `outsAt0`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point: the operands' buffers hold their blocks; k = t % 4 selects the case; the invariant hands
    the body the accumulator at what the point before left (at anything at the very first point) and takes it back at
    this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  by_cases h0 : t.val % 4 = 0
  · by_cases h1 : t.val % 4 = 3
    · exfalso; omega
    · rw [Dat.leavesExact_idle (dats m 0 c) 2 t (idleAt0_2_A t ((hcond0_0 t).mpr h0) (fun h => h1 ((hcond0_1 t).mp h))) (noFlush0_2_A t ((hcond0_0 t).mpr h0) (fun h => h1 ((hcond0_1 t).mp h)))]
      rw [outsAt0_A m c t h0 h1]
      unfold sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk m c 0 t) (iblk m c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _)
          iexact Hg
        isplitl [Ho]; · iexact Ho
        isplitl [H0]; · iexact H0
        isplitl [H1]; · iexact H1
        iexists _; iexact H2
      · rw [PhiS_castSucc m c t, PhiS_pos m c _ _ hz]
        iintro ⟨⟨HS0, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk m c 0 t) (iblk m c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _)
          iexact Hg
        isplitl [Ho]; · iexact Ho
        isplitl [H0]; · iexact H0
        isplitl [H1]; · iexact H1
        iexists _; iexact H2
  · have hz : t.val ≠ 0 := fun hz => h0 (by rw [hz])
    by_cases h1 : t.val % 4 = 3
    · rw [show (dats m 0 c).leavesExact 2 t = owns (c : Thread nD τ) (ms0_2 t) fullShare ((dats m 0 c).after 2 t) from by
        unfold Dat.leavesExact; rw [liveAt0_2_C t (fun h => h0 ((hcond0_0 t).mp h)) ((hcond0_1 t).mpr h1)], after0_2]
      rw [outsAt0_C m c t h0 h1]
      unfold out0_C_2 sout0_C_0; (try dsimp only)
      rw [PhiS_castSucc m c t, PhiS_pos m c _ _ hz]
      iintro ⟨⟨HS0, Hg⟩, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk m c 0 t) (iblk m c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hg]
      · isplitl [HS0]
        · unfold owns; iexists _; isplitr
          swap; · iexact HS0
          ipureintro; exact View.read_writes_of_cover _ _ _ _ _ (scover0_C_0 c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _)
    · rw [Dat.leavesExact_idle (dats m 0 c) 2 t (idleAt0_2_B t (fun h => h0 ((hcond0_0 t).mp h)) (fun h => h1 ((hcond0_1 t).mp h))) (noFlush0_2_B t (fun h => h0 ((hcond0_0 t).mp h)) (fun h => h1 ((hcond0_1 t).mp h)))]
      rw [outsAt0_B m c t h0 h1]
      unfold sout0_B_0; (try dsimp only)
      rw [PhiS_castSucc m c t, PhiS_pos m c _ _ hz]
      iintro ⟨⟨HS0, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk m c 0 t) (iblk m c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _)
        iexact Hg
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 128 := N_0; omega)

/-! ## The run and the frame -/

set_option backward.isDefEq.respectTransparency.types false in
/-- Every weakly fair execution of @main terminates, and in every final state each array of the product holds what the
    proof data computes and every other unscoped buffer what the later host lines leave. -/
theorem run_main : θ_run defs (onTc (τ := τ) (main (F := F))) (s₀ m ρ) (Pipeline.FramePost cfgs (dats m) 0 (Pipeline.afterTail₀ cfgs (dats m) 0 (V0 m) opsA)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := opsA) (hsub := sfx_sub) (hfresh := sfx_fresh) (hkeep := sfx_keeps)
    (hmain := hmain m Variants.none) (hA := A_eq m) (hin := hin m) (hout := hout m)

/-- The frame claim, at any float family. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.Kernel.Fr

end
-- ==== Proof.KI.Conds.lean ====
/-
  The two branch conditions of the matmul body, decided over the 32 x 4 grid, and the names of the memrefs the
  pipeline hands the body at a point.  A point t has coordinates (t / 4, t % 4): the second coordinate k walks the
  four column blocks of a row block.  The accumulator is reset where k = 0 and the output block is stored where k = 3.
-/
import proofs.«100252_j56049323213278_1_alg».proof.Proof.Gen.KernelIdeal.Launch
import proofs.«100252_j56049323213278_1_alg».proof.Proof.Gen.KernelIdeal.Skeleton
import proofs.«100252_j56049323213278_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The accumulator is reset: the body's first conditional, as a chain over the second grid coordinate. -/
abbrev cond0_0 (i : grid0.Coords) : Prop := (Scalar.cmpi .ne (Scalar.extui (Scalar.cmpi .eq (BitVec.ofNat 32 (i 1).val) 0#32)) 0#32) = 1#1
/-- It holds exactly at the points with k = 0. -/
theorem hcond0_0 : ∀ t : Fin cfg0.N, cond0_0 (grid0.coords t) ↔ t.val % 4 = 0 :=
  (by decide +kernel : ∀ t : Fin grid0.N, cond0_0 (grid0.coords t) ↔ t.val % 4 = 0)

/-- The output block is stored: the body's second conditional. -/
abbrev cond0_1 (i : grid0.Coords) : Prop := k0_cond2 i = 1#1
/-- It holds exactly at the points with k = 3. -/
theorem hcond0_1 : ∀ t : Fin cfg0.N, cond0_1 (grid0.coords t) ↔ t.val % 4 = 3 :=
  (by decide +kernel : ∀ t : Fin grid0.N, cond0_1 (grid0.coords t) ↔ t.val % 4 = 3)

/-- The input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
/-- Where k = 0 the body stores nothing into the output window, and its block is not written back. -/
theorem idleAt0_2_A : ∀ t : Fin cfg0.N, cond0_0 (grid0.coords t) → ¬cond0_1 (grid0.coords t) → cfg0.idle 2 (grid0.coords t) = true := by decide +kernel
theorem noFlush0_2_A : ∀ t : Fin cfg0.N, cond0_0 (grid0.coords t) → ¬cond0_1 (grid0.coords t) → (cfg0.win 2).flush t = false := by decide +kernel
/-- The same where k is 1 or 2. -/
theorem idleAt0_2_B : ∀ t : Fin cfg0.N, ¬cond0_0 (grid0.coords t) → ¬cond0_1 (grid0.coords t) → cfg0.idle 2 (grid0.coords t) = true := by decide +kernel
theorem noFlush0_2_B : ∀ t : Fin cfg0.N, ¬cond0_0 (grid0.coords t) → ¬cond0_1 (grid0.coords t) → (cfg0.win 2).flush t = false := by decide +kernel
/-- Where k = 3 the output window is live. -/
theorem liveAt0_2_C : ∀ t : Fin cfg0.N, ¬cond0_0 (grid0.coords t) → cond0_1 (grid0.coords t) → cfg0.idle 2 (grid0.coords t) = false := by decide +kernel

/-- One staging buffer of the output window, through which its contents are stated. -/
abbrev VO0_2 : View sig .tc .vmem S512x64 .f32 := (Memref.whole cc0_stg2_0 : Memref sig .tc .vmem S512x64 .f32).view
/-- Each window's current staging memref at point `t`, as the pipeline passes it, and its wholeness. -/
abbrev ms0_0 (t : Fin cfg0.N) : Memref sig .tc .vmem S512x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x64 .f32 := win0_2.stage (cfg0.slots t 2)
abbrev hs0_2 (t : Fin cfg0.N) : (ms0_2 t).IsWhole := hstage0_2 ((cfg0.slots t 2).cast nbuf0_2)
/-- The accumulator: a whole scoped buffer of the kernel's own, carried from point to point. -/
abbrev scM0_0 : Memref sig .tc .vmem S512x64 .f32 := Memref.whole cc0_scratch0
abbrev VS0_0 : View sig .tc .vmem S512x64 .f32 := scM0_0.view

/-- The region's invariant with the accumulator as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Fr

end
-- ==== Proof.KI.RunA.lean ====
/-
  The body at a point with k = 0, run whole.  The accumulator is first overwritten with zeros, then read back and
  the product of the two input blocks added to it; the output window is not touched.  The stores into the
  accumulator are recorded as a list of pieces, found by running the body.
-/
import proofs.«100252_j56049323213278_1_alg».proof.Proof.KI.Conds

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- Case k = 0: from the two input blocks `x0`, `x1`, the output buffer at any contents `xi2` (handed back as found)
    and the accumulator at anything, the body runs to a state with the inputs and the output buffer unchanged and the
    accumulator holding its pieces `LS0`. -/
noncomputable def kernelRun0_A (c : Dev nD) (i : grid0.Coords) (arg2 : Memref sig .tc .vmem S512x4096 .f32) (harg2 : arg2.IsWhole) (arg3 : Memref sig .tc .vmem S4096x64 .f32) (harg3 : arg3.IsWhole) (arg4 : Memref sig .tc .vmem S512x64 .f32) (harg4 : arg4.IsWhole) (arg5 : Memref sig .tc .vmem S512x64 .f32) (harg5 : arg5.IsWhole) (hc0 : cond0_0 i) (hc1 : ¬cond0_1 i)
    (x0 : Vec F S512x4096 .f32) (x1 : Vec F S4096x64 .f32) :
    Σ' (L2 : List (View.Piece (Elt F) S512x64 .f32)), { LS0 : List (View.Piece (Elt F) S512x64 .f32) //
      ∀ (xi2 : Vec F S512x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__matmul_kernel i arg2 harg2 arg3 harg3 arg4 harg4 arg5 harg5) K } := by
  refine ⟨[], ?_, fun xi2 E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Fr

end
-- ==== Proof.KI.RunB.lean ====
/-
  The body at a point with k = 1 or k = 2, run whole.  The accumulator, found at what the point before left, is read
  and the product of the two input blocks added to it; the output window is not touched.
-/
import proofs.«100252_j56049323213278_1_alg».proof.Proof.KI.RunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- Case k ∈ {1, 2}: from the input blocks `x0`, `x1`, the output buffer at any contents `xi2` and the accumulator at
    `xs0`, the body runs to a state with the inputs and the output buffer unchanged and the accumulator holding its
    pieces `LS0`. -/
noncomputable def kernelRun0_B (c : Dev nD) (i : grid0.Coords) (arg2 : Memref sig .tc .vmem S512x4096 .f32) (harg2 : arg2.IsWhole) (arg3 : Memref sig .tc .vmem S4096x64 .f32) (harg3 : arg3.IsWhole) (arg4 : Memref sig .tc .vmem S512x64 .f32) (harg4 : arg4.IsWhole) (arg5 : Memref sig .tc .vmem S512x64 .f32) (harg5 : arg5.IsWhole) (hc0 : ¬cond0_0 i) (hc1 : ¬cond0_1 i)
    (x0 : Vec F S512x4096 .f32) (x1 : Vec F S4096x64 .f32) (xs0 : Vec F S512x64 .f32) :
    Σ' (L2 : List (View.Piece (Elt F) S512x64 .f32)), { LS0 : List (View.Piece (Elt F) S512x64 .f32) //
      ∀ (xi2 : Vec F S512x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__matmul_kernel i arg2 harg2 arg3 harg3 arg4 harg4 arg5 harg5) K } := by
  refine ⟨[], ?_, fun xi2 E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2
    obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Fr

end
-- ==== Proof.KI.RunC.lean ====
/-
  The body at a point with k = 3, run whole.  The accumulator is read and the last product added; the finished
  accumulator is then read once more and stored, whole, into the output window's buffer.
-/
import proofs.«100252_j56049323213278_1_alg».proof.Proof.KI.RunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- Case k = 3: from the input blocks `x0`, `x1`, the output buffer at anything and the accumulator at `xs0`, the body
    runs to a state with the inputs unchanged, the output buffer holding its pieces `L2` and the accumulator its
    pieces `LS0`. -/
noncomputable def kernelRun0_C (c : Dev nD) (i : grid0.Coords) (arg2 : Memref sig .tc .vmem S512x4096 .f32) (harg2 : arg2.IsWhole) (arg3 : Memref sig .tc .vmem S4096x64 .f32) (harg3 : arg3.IsWhole) (arg4 : Memref sig .tc .vmem S512x64 .f32) (harg4 : arg4.IsWhole) (arg5 : Memref sig .tc .vmem S512x64 .f32) (harg5 : arg5.IsWhole) (hc0 : ¬cond0_0 i) (hc1 : cond0_1 i)
    (x0 : Vec F S512x4096 .f32) (x1 : Vec F S4096x64 .f32) (xs0 : Vec F S512x64 .f32) :
    Σ' (L2 : List (View.Piece (Elt F) S512x64 .f32)), { LS0 : List (View.Piece (Elt F) S512x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__matmul_kernel i arg2 harg2 arg3 harg3 arg4 harg4 arg5 harg5) K } := by
  refine ⟨?_, ?_, fun E K => ?run⟩
  case run =>
    simp only [cc0__matmul_kernel_eq_skeleton]; unfold cc0__matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1
    obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Fr

end
-- ==== Proof.KI.Shared.lean ====
/-
  The program around its one matrix product.  Forty host lines come before the product (they build the edge lists
  and the degree normalisation from the integer argument) and seventy-nine after it (the three message-passing
  layers and the softmax).  None of them writes an argument array, and the later ones write no array the product
  reads or produces; so the arguments end as they began, and the product finds its two operands as launched.
  Also here: the block of each window at a grid point, read off the array as the product finds it.
-/
import proofs.«100252_j56049323213278_1_alg».proof.Proof.KI.Conds

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the product -/

/-- The stretches of host lines before the product, -/
abbrev opsB : List (List (HloOp τ sig (Elt F))) := [hostOps0, hostOps0_1, hostOps0_2]
/-- and after it. -/
abbrev opsA : List (List (HloOp τ sig (Elt F))) := [hostOps1, hostOps1_1, hostOps1_2, hostOps1_3, hostOps1_4]

/-- A core's buffer contents when the product starts: the launch contents after the earlier host lines. -/
abbrev V0 (c : Dev nD) : Valuation τ sig (Elt F) := StableHlo.after (List.flatten [hostOps0, hostOps0_1, hostOps0_2]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor

/-- @main is the earlier lines, the product, the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((opsA (F := F)).map StableHlo.seq)) :=
  Pipeline.hmain_around cfgs 0 defs₀ 𝒱₀ m main [hostOps0, hostOps0_1, hostOps0_2] [hostOps1, hostOps1_1, hostOps1_2, hostOps1_3, hostOps1_4]
    (by simp only [List.Forall]; exact ⟨hostOps0_sub, hostOps0_1_sub, hostOps0_2_sub⟩)
    (by simp only [List.Forall]; exact ⟨hostOps0_fresh, hostOps0_1_fresh, hostOps0_2_fresh⟩) main_chain

/-- The later lines touch unscoped TensorCore buffers only. -/
theorem sfx_sub : ∀ ops ∈ (opsA : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [opsA, List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
/-- They allocate nothing. -/
theorem sfx_fresh : ∀ ops ∈ (opsA : List (List (HloOp τ sig (Elt F)))), ∀ op ∈ ops, op.fresh = ∅ := by
  intro ops hops op hop
  simp only [opsA, List.mem_cons, List.mem_nil_iff, or_false] at hops
  rcases hops with rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop

set_option maxHeartbeats 1000000 in
theorem hostOps1_keeps : (hostOps1 : List (HloOp τ sig (Elt F))).Forall fun op => ∀ w, Proc.devRef .tc (Pipeline.arrRef spec0 w) ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
set_option maxHeartbeats 1000000 in
theorem hostOps1_1_keeps : (hostOps1_1 : List (HloOp τ sig (Elt F))).Forall fun op => ∀ w, Proc.devRef .tc (Pipeline.arrRef spec0 w) ∉ op.writes := by
  simp only [hostOps1_1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
set_option maxHeartbeats 1000000 in
theorem hostOps1_2_keeps : (hostOps1_2 : List (HloOp τ sig (Elt F))).Forall fun op => ∀ w, Proc.devRef .tc (Pipeline.arrRef spec0 w) ∉ op.writes := by
  simp only [hostOps1_2, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
set_option maxHeartbeats 1000000 in
theorem hostOps1_3_keeps : (hostOps1_3 : List (HloOp τ sig (Elt F))).Forall fun op => ∀ w, Proc.devRef .tc (Pipeline.arrRef spec0 w) ∉ op.writes := by
  simp only [hostOps1_3, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
set_option maxHeartbeats 1000000 in
theorem hostOps1_4_keeps : (hostOps1_4 : List (HloOp τ sig (Elt F))).Forall fun op => ∀ w, Proc.devRef .tc (Pipeline.arrRef spec0 w) ∉ op.writes := by
  simp only [hostOps1_4, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))

/-- And they write neither operand of the product nor its result array. -/
theorem sfx_keeps : ∀ ops ∈ (opsA : List (List (HloOp τ sig (Elt F)))), ∀ op ∈ ops,
    ∀ w, Proc.devRef .tc (Pipeline.arrRef spec0 w) ∉ op.writes := by
  intro ops hops op hop
  simp only [opsA, List.mem_cons, List.mem_nil_iff, or_false] at hops
  rcases hops with rfl | rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop
  · exact (List.forall_iff_forall_mem.mp hostOps1_4_keeps) op hop

set_option maxHeartbeats 1000000 in
/-- No host line before the product writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 1000000 in
/-- No host line before the product writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 1000000 in
/-- No host line before the product writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 1000000 in
/-- No host line before the product writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 1000000 in
/-- No host line before the product writes argument 4. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 1000000 in
/-- No host line before the product writes argument 5. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 1000000 in
/-- No host line before the product writes argument 6. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 1000000 in
/-- No host line before the product writes argument 7. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 2000000 in
/-- No host line after the product writes argument 1, and it is no array of the product. -/
theorem W_main_arg1 (dats : (p : Fin _) → (c : Dev nD) → Dat τ (Elt F) Unit ℕ (UR sig nD τ) ℕ (cfgs p) c) (c : Dev nD) :
    Pipeline.afterTail₀ cfgs dats 0 (V0 m) opsA c main_arg1 = m ((c : Thread nD τ).loc main_arg1) := by
  unfold Pipeline.afterTail₀
  rw [StableHlo.after_of_forall_not_mem (b := Proc.devRef .tc main_arg1) _ _ (List.forall_iff_forall_mem.mp (by
      simp only [opsA, hostOps1, hostOps1_1, hostOps1_2, hostOps1_3, hostOps1_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

set_option maxHeartbeats 2000000 in
/-- No host line after the product writes argument 3, and it is no array of the product. -/
theorem W_main_arg3 (dats : (p : Fin _) → (c : Dev nD) → Dat τ (Elt F) Unit ℕ (UR sig nD τ) ℕ (cfgs p) c) (c : Dev nD) :
    Pipeline.afterTail₀ cfgs dats 0 (V0 m) opsA c main_arg3 = m ((c : Thread nD τ).loc main_arg3) := by
  unfold Pipeline.afterTail₀
  rw [StableHlo.after_of_forall_not_mem (b := Proc.devRef .tc main_arg3) _ _ (List.forall_iff_forall_mem.mp (by
      simp only [opsA, hostOps1, hostOps1_1, hostOps1_2, hostOps1_3, hostOps1_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

set_option maxHeartbeats 2000000 in
/-- No host line after the product writes argument 4, and it is no array of the product. -/
theorem W_main_arg4 (dats : (p : Fin _) → (c : Dev nD) → Dat τ (Elt F) Unit ℕ (UR sig nD τ) ℕ (cfgs p) c) (c : Dev nD) :
    Pipeline.afterTail₀ cfgs dats 0 (V0 m) opsA c main_arg4 = m ((c : Thread nD τ).loc main_arg4) := by
  unfold Pipeline.afterTail₀
  rw [StableHlo.after_of_forall_not_mem (b := Proc.devRef .tc main_arg4) _ _ (List.forall_iff_forall_mem.mp (by
      simp only [opsA, hostOps1, hostOps1_1, hostOps1_2, hostOps1_3, hostOps1_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

set_option maxHeartbeats 2000000 in
/-- No host line after the product writes argument 5, and it is no array of the product. -/
theorem W_main_arg5 (dats : (p : Fin _) → (c : Dev nD) → Dat τ (Elt F) Unit ℕ (UR sig nD τ) ℕ (cfgs p) c) (c : Dev nD) :
    Pipeline.afterTail₀ cfgs dats 0 (V0 m) opsA c main_arg5 = m ((c : Thread nD τ).loc main_arg5) := by
  unfold Pipeline.afterTail₀
  rw [StableHlo.after_of_forall_not_mem (b := Proc.devRef .tc main_arg5) _ _ (List.forall_iff_forall_mem.mp (by
      simp only [opsA, hostOps1, hostOps1_1, hostOps1_2, hostOps1_3, hostOps1_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

set_option maxHeartbeats 2000000 in
/-- No host line after the product writes argument 6, and it is no array of the product. -/
theorem W_main_arg6 (dats : (p : Fin _) → (c : Dev nD) → Dat τ (Elt F) Unit ℕ (UR sig nD τ) ℕ (cfgs p) c) (c : Dev nD) :
    Pipeline.afterTail₀ cfgs dats 0 (V0 m) opsA c main_arg6 = m ((c : Thread nD τ).loc main_arg6) := by
  unfold Pipeline.afterTail₀
  rw [StableHlo.after_of_forall_not_mem (b := Proc.devRef .tc main_arg6) _ _ (List.forall_iff_forall_mem.mp (by
      simp only [opsA, hostOps1, hostOps1_1, hostOps1_2, hostOps1_3, hostOps1_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

set_option maxHeartbeats 2000000 in
/-- No host line after the product writes argument 7, and it is no array of the product. -/
theorem W_main_arg7 (dats : (p : Fin _) → (c : Dev nD) → Dat τ (Elt F) Unit ℕ (UR sig nD τ) ℕ (cfgs p) c) (c : Dev nD) :
    Pipeline.afterTail₀ cfgs dats 0 (V0 m) opsA c main_arg7 = m ((c : Thread nD τ).loc main_arg7) := by
  unfold Pipeline.afterTail₀
  rw [StableHlo.after_of_forall_not_mem (b := Proc.devRef .tc main_arg7) _ _ (List.forall_iff_forall_mem.mp (by
      simp only [opsA, hostOps1, hostOps1_1, hostOps1_2, hostOps1_3, hostOps1_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

/-! ## The windows' blocks -/

/-- Window `w`'s block at point `t`, read off its array as the product finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The left operand's staging buffer holds its block at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The right operand's staging buffer holds its block at every point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The arguments end unchanged -/

/-- From a run to the launch's post, for any proof data whose arrays are the entry contents: every argument array ends
    at its launch contents — the two operands because an input window's array is never written, the others because
    no line and no window touches them. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) opsA))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨
    ((h c).1 0).trans (((dats 0 c).arrAt_in 0 rfl _).trans ((hA c 0).trans (V_main_arg0 m c))),
    ((h c).2 main_arg1 (Pipeline.mem_restRefs_of main_arg1 (by decide) (by decide))).trans (W_main_arg1 m dats c),
    ((h c).1 1).trans (((dats 0 c).arrAt_in 1 rfl _).trans ((hA c 1).trans (V_main_arg2 m c))),
    ((h c).2 main_arg3 (Pipeline.mem_restRefs_of main_arg3 (by decide) (by decide))).trans (W_main_arg3 m dats c),
    ((h c).2 main_arg4 (Pipeline.mem_restRefs_of main_arg4 (by decide) (by decide))).trans (W_main_arg4 m dats c),
    ((h c).2 main_arg5 (Pipeline.mem_restRefs_of main_arg5 (by decide) (by decide))).trans (W_main_arg5 m dats c),
    ((h c).2 main_arg6 (Pipeline.mem_restRefs_of main_arg6 (by decide) (by decide))).trans (W_main_arg6 m dats c),
    ((h c).2 main_arg7 (Pipeline.mem_restRefs_of main_arg7 (by decide) (by decide))).trans (W_main_arg7 m dats c)⟩) h

end Cert.KernelIdeal.Fr

end
-- ==== Proof.KI.Frame.lean ====
/-
  The frame of the program: it runs to the end, nothing faults, and the argument arrays end as they began.
  The product's body is run once per case of its two conditionals (k = 0; k = 1 or 2; k = 3).  What the accumulator
  holds after each grid point is defined by recursion on the point: the case's stores read back, over what the
  point before left.  The output block is written only where k = 3 and written back to its array only there.
  With this as the proof data of the pipeline the launch theorem for a region between host lines gives the run.
-/
import proofs.«100252_j56049323213278_1_alg».proof.Proof.KI.RunC
import proofs.«100252_j56049323213278_1_alg».proof.Proof.KI.Shared

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What case A leaves in the output buffer: its stores read back (none: a placeholder nothing consults, the window being idle and not written back there). -/
def out0_A_2 (c : Dev nD) (i : grid0.Coords) (arg2 : Memref sig .tc .vmem S512x4096 .f32) (harg2 : arg2.IsWhole) (arg3 : Memref sig .tc .vmem S4096x64 .f32) (harg3 : arg3.IsWhole) (arg4 : Memref sig .tc .vmem S512x64 .f32) (harg4 : arg4.IsWhole) (arg5 : Memref sig .tc .vmem S512x64 .f32) (harg5 : arg5.IsWhole) (hc0 : cond0_0 i) (hc1 : ¬cond0_1 i)
    (x0 : Vec F S512x4096 .f32) (x1 : Vec F S4096x64 .f32) : Vec F S512x64 .f32 :=
  VO0_2.read (Elt F) (VO0_2.writes (Elt F) VO0_2.junk (kernelRun0_A c i arg2 harg2 arg3 harg3 arg4 harg4 arg5 harg5 hc0 hc1 x0 x1).1)

/-- At a point of case A the stores into the accumulator tile it. -/
theorem scover0_A_0 (c : Dev nD) (i : grid0.Coords) (arg2 : Memref sig .tc .vmem S512x4096 .f32) (harg2 : arg2.IsWhole) (arg3 : Memref sig .tc .vmem S4096x64 .f32) (harg3 : arg3.IsWhole) (arg4 : Memref sig .tc .vmem S512x64 .f32) (harg4 : arg4.IsWhole) (arg5 : Memref sig .tc .vmem S512x64 .f32) (harg5 : arg5.IsWhole) (hc0 : cond0_0 i) (hc1 : ¬cond0_1 i)
    (x0 : Vec F S512x4096 .f32) (x1 : Vec F S4096x64 .f32) (y : S512x64.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S512x64.size (by sl_kernel_rfl) y

/-- What case A leaves in the accumulator: its stores read back. -/
def sout0_A_0 (c : Dev nD) (i : grid0.Coords) (arg2 : Memref sig .tc .vmem S512x4096 .f32) (harg2 : arg2.IsWhole) (arg3 : Memref sig .tc .vmem S4096x64 .f32) (harg3 : arg3.IsWhole) (arg4 : Memref sig .tc .vmem S512x64 .f32) (harg4 : arg4.IsWhole) (arg5 : Memref sig .tc .vmem S512x64 .f32) (harg5 : arg5.IsWhole) (hc0 : cond0_0 i) (hc1 : ¬cond0_1 i)
    (x0 : Vec F S512x4096 .f32) (x1 : Vec F S4096x64 .f32) : Vec F S512x64 .f32 :=
  VS0_0.read (Elt F) (VS0_0.writes (Elt F) VS0_0.junk (kernelRun0_A c i arg2 harg2 arg3 harg3 arg4 harg4 arg5 harg5 hc0 hc1 x0 x1).2.1)

/-- What case B leaves in the output buffer: its stores read back (none: a placeholder nothing consults, the window being idle and not written back there). -/
def out0_B_2 (c : Dev nD) (i : grid0.Coords) (arg2 : Memref sig .tc .vmem S512x4096 .f32) (harg2 : arg2.IsWhole) (arg3 : Memref sig .tc .vmem S4096x64 .f32) (harg3 : arg3.IsWhole) (arg4 : Memref sig .tc .vmem S512x64 .f32) (harg4 : arg4.IsWhole) (arg5 : Memref sig .tc .vmem S512x64 .f32) (harg5 : arg5.IsWhole) (hc0 : ¬cond0_0 i) (hc1 : ¬cond0_1 i)
    (x0 : Vec F S512x4096 .f32) (x1 : Vec F S4096x64 .f32) (xs0 : Vec F S512x64 .f32) : Vec F S512x64 .f32 :=
  VO0_2.read (Elt F) (VO0_2.writes (Elt F) VO0_2.junk (kernelRun0_B c i arg2 harg2 arg3 harg3 arg4 harg4 arg5 harg5 hc0 hc1 x0 x1 xs0).1)

/-- At a point of case B the stores into the accumulator tile it. -/
theorem scover0_B_0 (c : Dev nD) (i : grid0.Coords) (arg2 : Memref sig .tc .vmem S512x4096 .f32) (harg2 : arg2.IsWhole) (arg3 : Memref sig .tc .vmem S4096x64 .f32) (harg3 : arg3.IsWhole) (arg4 : Memref sig .tc .vmem S512x64 .f32) (harg4 : arg4.IsWhole) (arg5 : Memref sig .tc .vmem S512x64 .f32) (harg5 : arg5.IsWhole) (hc0 : ¬cond0_0 i) (hc1 : ¬cond0_1 i)
    (x0 : Vec F S512x4096 .f32) (x1 : Vec F S4096x64 .f32) (xs0 : Vec F S512x64 .f32) (y : S512x64.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S512x64.size (by sl_kernel_rfl) y

/-- What case B leaves in the accumulator: its stores read back. -/
def sout0_B_0 (c : Dev nD) (i : grid0.Coords) (arg2 : Memref sig .tc .vmem S512x4096 .f32) (harg2 : arg2.IsWhole) (arg3 : Memref sig .tc .vmem S4096x64 .f32) (harg3 : arg3.IsWhole) (arg4 : Memref sig .tc .vmem S512x64 .f32) (harg4 : arg4.IsWhole) (arg5 : Memref sig .tc .vmem S512x64 .f32) (harg5 : arg5.IsWhole) (hc0 : ¬cond0_0 i) (hc1 : ¬cond0_1 i)
    (x0 : Vec F S512x4096 .f32) (x1 : Vec F S4096x64 .f32) (xs0 : Vec F S512x64 .f32) : Vec F S512x64 .f32 :=
  VS0_0.read (Elt F) (VS0_0.writes (Elt F) VS0_0.junk (kernelRun0_B c i arg2 harg2 arg3 harg3 arg4 harg4 arg5 harg5 hc0 hc1 x0 x1 xs0).2.1)

/-- At a point of case C the stores into the output buffer tile it. -/
theorem cover0_C_2 (c : Dev nD) (i : grid0.Coords) (arg2 : Memref sig .tc .vmem S512x4096 .f32) (harg2 : arg2.IsWhole) (arg3 : Memref sig .tc .vmem S4096x64 .f32) (harg3 : arg3.IsWhole) (arg4 : Memref sig .tc .vmem S512x64 .f32) (harg4 : arg4.IsWhole) (arg5 : Memref sig .tc .vmem S512x64 .f32) (harg5 : arg5.IsWhole) (hc0 : ¬cond0_0 i) (hc1 : cond0_1 i)
    (x0 : Vec F S512x4096 .f32) (x1 : Vec F S4096x64 .f32) (xs0 : Vec F S512x64 .f32) (y : S512x64.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S512x64.size (by sl_kernel_rfl) y

/-- What case C leaves in the output buffer: its stores read back. -/
def out0_C_2 (c : Dev nD) (i : grid0.Coords) (arg2 : Memref sig .tc .vmem S512x4096 .f32) (harg2 : arg2.IsWhole) (arg3 : Memref sig .tc .vmem S4096x64 .f32) (harg3 : arg3.IsWhole) (arg4 : Memref sig .tc .vmem S512x64 .f32) (harg4 : arg4.IsWhole) (arg5 : Memref sig .tc .vmem S512x64 .f32) (harg5 : arg5.IsWhole) (hc0 : ¬cond0_0 i) (hc1 : cond0_1 i)
    (x0 : Vec F S512x4096 .f32) (x1 : Vec F S4096x64 .f32) (xs0 : Vec F S512x64 .f32) : Vec F S512x64 .f32 :=
  VO0_2.read (Elt F) (VO0_2.writes (Elt F) VO0_2.junk (kernelRun0_C c i arg2 harg2 arg3 harg3 arg4 harg4 arg5 harg5 hc0 hc1 x0 x1 xs0).1)

/-- At a point of case C the stores into the accumulator tile it. -/
theorem scover0_C_0 (c : Dev nD) (i : grid0.Coords) (arg2 : Memref sig .tc .vmem S512x4096 .f32) (harg2 : arg2.IsWhole) (arg3 : Memref sig .tc .vmem S4096x64 .f32) (harg3 : arg3.IsWhole) (arg4 : Memref sig .tc .vmem S512x64 .f32) (harg4 : arg4.IsWhole) (arg5 : Memref sig .tc .vmem S512x64 .f32) (harg5 : arg5.IsWhole) (hc0 : ¬cond0_0 i) (hc1 : cond0_1 i)
    (x0 : Vec F S512x4096 .f32) (x1 : Vec F S4096x64 .f32) (xs0 : Vec F S512x64 .f32) (y : S512x64.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S512x64.size (by sl_kernel_rfl) y

/-- What case C leaves in the accumulator: its stores read back. -/
def sout0_C_0 (c : Dev nD) (i : grid0.Coords) (arg2 : Memref sig .tc .vmem S512x4096 .f32) (harg2 : arg2.IsWhole) (arg3 : Memref sig .tc .vmem S4096x64 .f32) (harg3 : arg3.IsWhole) (arg4 : Memref sig .tc .vmem S512x64 .f32) (harg4 : arg4.IsWhole) (arg5 : Memref sig .tc .vmem S512x64 .f32) (harg5 : arg5.IsWhole) (hc0 : ¬cond0_0 i) (hc1 : cond0_1 i)
    (x0 : Vec F S512x4096 .f32) (x1 : Vec F S4096x64 .f32) (xs0 : Vec F S512x64 .f32) : Vec F S512x64 .f32 :=
  VS0_0.read (Elt F) (VS0_0.writes (Elt F) VS0_0.junk (kernelRun0_C c i arg2 harg2 arg3 harg3 arg4 harg4 arg5 harg5 hc0 hc1 x0 x1 xs0).2.1)

/-! ## What the buffers hold after each point -/

/-- After the body at position `n`: the output buffer (first) and the accumulator (second).  The case is the one
    k = n % 4 selects; cases B and C start from what position `n - 1` left in the accumulator. -/
def outsAt0 (c : Dev nD) : (n : ℕ) → n < cfg0.N → Vec F S512x64 .f32 × Vec F S512x64 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩))
  | n + 1, hn =>
    if h0 : (n + 1) % 4 = 0 then
      if h1 : (n + 1) % 4 = 3 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩))
    else
      if h1 : (n + 1) % 4 = 3 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2)

theorem outsAt0_A (c : Dev nD) (t : Fin cfg0.N) (h0 : t.val % 4 = 0) (h1 : ¬t.val % 4 = 3) :
    outsAt0 m c t.val t.isLt = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t), sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 m c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 m c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the accumulator at anything; afterwards at what
    the point before left in it; the generator register at some state throughout. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The arrays as the product finds them; after the body at point `t` each operand's buffer at its block and the
    output's at `outsAt0`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point: the operands' buffers hold their blocks; k = t % 4 selects the case; the invariant hands
    the body the accumulator at what the point before left (at anything at the very first point) and takes it back at
    this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  by_cases h0 : t.val % 4 = 0
  · by_cases h1 : t.val % 4 = 3
    · exfalso; omega
    · rw [Dat.leavesExact_idle (dats m 0 c) 2 t (idleAt0_2_A t ((hcond0_0 t).mpr h0) (fun h => h1 ((hcond0_1 t).mp h))) (noFlush0_2_A t ((hcond0_0 t).mpr h0) (fun h => h1 ((hcond0_1 t).mp h)))]
      rw [outsAt0_A m c t h0 h1]
      unfold sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk m c 0 t) (iblk m c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _)
          iexact Hg
        isplitl [Ho]; · iexact Ho
        isplitl [H0]; · iexact H0
        isplitl [H1]; · iexact H1
        iexists _; iexact H2
      · rw [PhiS_castSucc m c t, PhiS_pos m c _ _ hz]
        iintro ⟨⟨HS0, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk m c 0 t) (iblk m c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _)
          iexact Hg
        isplitl [Ho]; · iexact Ho
        isplitl [H0]; · iexact H0
        isplitl [H1]; · iexact H1
        iexists _; iexact H2
  · have hz : t.val ≠ 0 := fun hz => h0 (by rw [hz])
    by_cases h1 : t.val % 4 = 3
    · rw [show (dats m 0 c).leavesExact 2 t = owns (c : Thread nD τ) (ms0_2 t) fullShare ((dats m 0 c).after 2 t) from by
        unfold Dat.leavesExact; rw [liveAt0_2_C t (fun h => h0 ((hcond0_0 t).mp h)) ((hcond0_1 t).mpr h1)], after0_2]
      rw [outsAt0_C m c t h0 h1]
      unfold out0_C_2 sout0_C_0; (try dsimp only)
      rw [PhiS_castSucc m c t, PhiS_pos m c _ _ hz]
      iintro ⟨⟨HS0, Hg⟩, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk m c 0 t) (iblk m c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hg]
      · isplitl [HS0]
        · unfold owns; iexists _; isplitr
          swap; · iexact HS0
          ipureintro; exact View.read_writes_of_cover _ _ _ _ _ (scover0_C_0 c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _)
    · rw [Dat.leavesExact_idle (dats m 0 c) 2 t (idleAt0_2_B t (fun h => h0 ((hcond0_0 t).mp h)) (fun h => h1 ((hcond0_1 t).mp h))) (noFlush0_2_B t (fun h => h0 ((hcond0_0 t).mp h)) (fun h => h1 ((hcond0_1 t).mp h)))]
      rw [outsAt0_B m c t h0 h1]
      unfold sout0_B_0; (try dsimp only)
      rw [PhiS_castSucc m c t, PhiS_pos m c _ _ hz]
      iintro ⟨⟨HS0, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk m c 0 t) (iblk m c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _)
        iexact Hg
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 128 := N_0; omega)

/-! ## The run and the frame -/

set_option backward.isDefEq.respectTransparency.types false in
/-- Every weakly fair execution of @main terminates, and in every final state each array of the product holds what the
    proof data computes and every other unscoped buffer what the later host lines leave. -/
theorem run_main : θ_run defs (onTc (τ := τ) (main (F := F))) (s₀ m ρ) (Pipeline.FramePost cfgs (dats m) 0 (Pipeline.afterTail₀ cfgs (dats m) 0 (V0 m) opsA)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := opsA) (hsub := sfx_sub) (hfresh := sfx_fresh) (hkeep := sfx_keeps)
    (hmain := hmain m Variants.none) (hA := A_eq m) (hin := hin m) (hout := hout m)

/-- The frame claim, at any float family. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.KernelIdeal.Fr

end
-- ==== Proof.KI.Post.lean ====
/-
  The launch's post read at one core: each argument array ends at its launch contents.
-/
import proofs.«100252_j56049323213278_1_alg».proof.Proof.KI.Frame

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- In a final state of the run every argument array of core `c` holds its launch contents: the two operands of the
    product because an input window's array is never written, the others because no window and no later host line
    touches them. -/
theorem args_of_post (r : PUnit × MemSt nD τ sig (Elt F))
    (h : Pipeline.FramePost cfgs (dats m) 0 (Pipeline.afterTail₀ cfgs (dats m) 0 (V0 m) opsA) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨((h c).1 0).trans ((((dats m) 0 c).arrAt_in 0 rfl _).trans ((A_eq m c 0).trans (V_main_arg0 m c))),
    ((h c).2 main_arg1 (Pipeline.mem_restRefs_of main_arg1 (by decide) (by decide))).trans (W_main_arg1 m (dats m) c),
    ((h c).1 1).trans ((((dats m) 0 c).arrAt_in 1 rfl _).trans ((A_eq m c 1).trans (V_main_arg2 m c))),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c),
    ((h c).2 main_arg5 (Pipeline.mem_restRefs_of main_arg5 (by decide) (by decide))).trans (W_main_arg5 m (dats m) c),
    ((h c).2 main_arg6 (Pipeline.mem_restRefs_of main_arg6 (by decide) (by decide))).trans (W_main_arg6 m (dats m) c),
    ((h c).2 main_arg7 (Pipeline.mem_restRefs_of main_arg7 (by decide) (by decide))).trans (W_main_arg7 m (dats m) c)⟩

/-- The program's result buffer is touched by no window: it ends at what the later host lines compute. -/
theorem result_of_post (r : PUnit × MemSt nD τ sig (Elt F))
    (h : Pipeline.FramePost cfgs (dats m) 0 (Pipeline.afterTail₀ cfgs (dats m) 0 (V0 m) opsA) r) (c : Dev nD) :
    r.2.mem ((c.tc : Thread nD τ).loc main_v93) = Pipeline.afterTail₀ cfgs (dats m) 0 (V0 m) opsA c main_v93 :=
  (h c).2 main_v93 (Pipeline.mem_restRefs_of main_v93 (by decide) (by decide))

end Cert.KernelIdeal.Fr

end
-- ==== Proof.KI.Pieces.lean ====
/-
  What each case of the body leaves in the accumulator and in the output buffer, as the body's payloads:
  the stores recorded by the run, read back.
-/
import proofs.«100252_j56049323213278_1_alg».proof.Proof.KI.Frame
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets of the whole-buffer rectangle are zero. -/
theorem hz00 : (![0, 0] : Fin 2 → Nat) = fun _ => 0 := funext fun a => by fin_cases a <;> rfl

/-- Case k = 0 leaves the update payload over the reset payload in the accumulator. -/
theorem sout0_A_0_eq (c : Dev nD) (i : grid0.Coords) (arg2 : Memref sig .tc .vmem S512x4096 .f32) (harg2 : arg2.IsWhole) (arg3 : Memref sig .tc .vmem S4096x64 .f32) (harg3 : arg3.IsWhole) (arg4 : Memref sig .tc .vmem S512x64 .f32) (harg4 : arg4.IsWhole) (arg5 : Memref sig .tc .vmem S512x64 .f32) (harg5 : arg5.IsWhole) (hc0 : cond0_0 i) (hc1 : ¬cond0_1 i)
    (x0 : Vec F S512x4096 .f32) (x1 : Vec F S4096x64 .f32) :
    sout0_A_0 c i arg2 harg2 arg3 harg3 arg4 harg4 arg5 harg5 hc0 hc1 x0 x1 = k0_pay2 x0 x1 (k0_pay1 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S512x64) hz00, View.readCov_unit_zero (S := S512x64) _ hz00]
  simp only [View.readAt_eq_ld, harg2.read_unread, harg3.read_unread, harg5.read_unread, View.ld_unit_zero (S := S512x4096) hz00, View.ld_unit_zero (S := S4096x64) hz00, View.ld_unit_zero (S := S512x64) hz00, View.readCov_unit_zero (S := S512x64) _ hz00]

/-- Case k ∈ {1, 2} leaves the update payload over what it found. -/
theorem sout0_B_0_eq (c : Dev nD) (i : grid0.Coords) (arg2 : Memref sig .tc .vmem S512x4096 .f32) (harg2 : arg2.IsWhole) (arg3 : Memref sig .tc .vmem S4096x64 .f32) (harg3 : arg3.IsWhole) (arg4 : Memref sig .tc .vmem S512x64 .f32) (harg4 : arg4.IsWhole) (arg5 : Memref sig .tc .vmem S512x64 .f32) (harg5 : arg5.IsWhole) (hc0 : ¬cond0_0 i) (hc1 : ¬cond0_1 i)
    (x0 : Vec F S512x4096 .f32) (x1 : Vec F S4096x64 .f32) (xs0 : Vec F S512x64 .f32) :
    sout0_B_0 c i arg2 harg2 arg3 harg3 arg4 harg4 arg5 harg5 hc0 hc1 x0 x1 xs0 = k0_pay2 x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero hz00]
  simp only [View.readAt_eq_ld, harg2.read_unread, harg3.read_unread, harg5.read_unread, View.ld_unit_zero (S := S512x4096) hz00, View.ld_unit_zero (S := S4096x64) hz00, View.ld_unit_zero (S := S512x64) hz00]

/-- Case k = 3 leaves the same in the accumulator, -/
theorem sout0_C_0_eq (c : Dev nD) (i : grid0.Coords) (arg2 : Memref sig .tc .vmem S512x4096 .f32) (harg2 : arg2.IsWhole) (arg3 : Memref sig .tc .vmem S4096x64 .f32) (harg3 : arg3.IsWhole) (arg4 : Memref sig .tc .vmem S512x64 .f32) (harg4 : arg4.IsWhole) (arg5 : Memref sig .tc .vmem S512x64 .f32) (harg5 : arg5.IsWhole) (hc0 : ¬cond0_0 i) (hc1 : cond0_1 i)
    (x0 : Vec F S512x4096 .f32) (x1 : Vec F S4096x64 .f32) (xs0 : Vec F S512x64 .f32) :
    sout0_C_0 c i arg2 harg2 arg3 harg3 arg4 harg4 arg5 harg5 hc0 hc1 x0 x1 xs0 = k0_pay2 x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero hz00]
  simp only [View.readAt_eq_ld, harg2.read_unread, harg3.read_unread, harg5.read_unread, View.ld_unit_zero (S := S512x4096) hz00, View.ld_unit_zero (S := S4096x64) hz00, View.ld_unit_zero (S := S512x64) hz00]

/-- and stores it, whole, in the output buffer. -/
theorem out0_C_2_eq (c : Dev nD) (i : grid0.Coords) (arg2 : Memref sig .tc .vmem S512x4096 .f32) (harg2 : arg2.IsWhole) (arg3 : Memref sig .tc .vmem S4096x64 .f32) (harg3 : arg3.IsWhole) (arg4 : Memref sig .tc .vmem S512x64 .f32) (harg4 : arg4.IsWhole) (arg5 : Memref sig .tc .vmem S512x64 .f32) (harg5 : arg5.IsWhole) (hc0 : ¬cond0_0 i) (hc1 : cond0_1 i)
    (x0 : Vec F S512x4096 .f32) (x1 : Vec F S4096x64 .f32) (xs0 : Vec F S512x64 .f32) :
    out0_C_2 c i arg2 harg2 arg3 harg3 arg4 harg4 arg5 harg5 hc0 hc1 x0 x1 xs0 = k0_pay2 x0 x1 xs0 := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero hz00]
  simp only [View.readAt_eq_ld, harg2.read_unread, harg3.read_unread, harg5.read_unread, View.ld_unit_zero (S := S512x4096) hz00, View.ld_unit_zero (S := S4096x64) hz00, View.ld_unit_zero (S := S512x64) hz00, View.readCov_unit_zero (S := S512x64) _ hz00]

end Cert.KernelIdeal.Fr

end
-- ==== Proof.KI.PayAt.lean ====
/-
  The two payloads of the matmul body read at an index, over the extended reals, and the regrouping of a sum of
  16384 terms into four consecutive blocks of 4096.
-/
import proofs.«100252_j56049323213278_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws
import Mathlib.Algebra.BigOperators.Fin

set_option maxRecDepth 16384

noncomputable section

namespace Cert.KernelIdeal.Val

open Cert.KernelIdeal Cert.KernelIdeal.Gen
open Idealize.ShloMosaic Idealize.ShloMosaic.TcCoe Idealize.SL.Sem
open Idealize.ShloMosaic.ValueIdx

/-- The reset payload is zero everywhere. -/
theorem pay1_at (y : S512x64.Idx) : k0_pay1 (F := Ideal) y = (0 : EReal) := by
  unfold k0_pay1
  simp only [shapeCast_self]
  exact Ideal.ofBits_zero_f32

/-! The matmul's operand indices, one axis at a time: at output position `i` and contraction position `q` the left
    operand is read at row `i 0`, column `q`, and the right operand at row `q`, column `i 1`. -/

/-- The left operand's row is the output's row. -/
theorem matmul_left_row (i : S512x64.Idx) (q : dot_S512x4096_S4096x64_S512x64_1_0_0_1_n_n.contr.Idx) :
    (dot_S512x4096_S4096x64_S512x64_1_0_0_1_n_n.lhsIdx i q 0).val = (i 0).val := by
  unfold DotDims.lhsIdx
  rw [dif_neg (show ¬(0 : Fin S512x4096.rank) ∈ dot_S512x4096_S4096x64_S512x64_1_0_0_1_n_n.lhsBatch by decide), dif_pos (show (0 : Fin S512x4096.rank) ∈ dot_S512x4096_S4096x64_S512x64_1_0_0_1_n_n.lhsNonContracting by decide)]
  rfl
/-- The left operand's column is the contraction position. -/
theorem matmul_left_col (i : S512x64.Idx) (q : dot_S512x4096_S4096x64_S512x64_1_0_0_1_n_n.contr.Idx) :
    (dot_S512x4096_S4096x64_S512x64_1_0_0_1_n_n.lhsIdx i q 1).val = (q ⟨0, by decide⟩).val :=
  dot_S512x4096_S4096x64_S512x64_1_0_0_1_n_n.lhsIdx_val_of_single rfl i q
/-- The right operand's row is the contraction position. -/
theorem matmul_right_row (i : S512x64.Idx) (q : dot_S512x4096_S4096x64_S512x64_1_0_0_1_n_n.contr.Idx) :
    (dot_S512x4096_S4096x64_S512x64_1_0_0_1_n_n.rhsIdx i q 0).val = (q ⟨0, by decide⟩).val :=
  dot_S512x4096_S4096x64_S512x64_1_0_0_1_n_n.rhsIdx_val_of_single rfl i q
/-- The right operand's column is the output's column. -/
theorem matmul_right_col (i : S512x64.Idx) (q : dot_S512x4096_S4096x64_S512x64_1_0_0_1_n_n.contr.Idx) :
    (dot_S512x4096_S4096x64_S512x64_1_0_0_1_n_n.rhsIdx i q 1).val = (i 1).val := by
  unfold DotDims.rhsIdx
  rw [dif_neg (show ¬(1 : Fin S4096x64.rank) ∈ dot_S512x4096_S4096x64_S512x64_1_0_0_1_n_n.rhsBatch by decide), dif_pos (show (1 : Fin S4096x64.rank) ∈ dot_S512x4096_S4096x64_S512x64_1_0_0_1_n_n.rhsNonContracting by decide)]
  rfl

/-- The product of a 512×4096 block with a 4096×64 block into a zero accumulator, at row `p`, column `q`: the sum over
    the 4096 contraction positions. -/
theorem matmul_zero_at (a : FVec Ideal S512x4096 .bf16) (b : FVec Ideal S4096x64 .bf16) (p : Fin 512) (q : Fin 64) :
    matmul dot_S512x4096_S4096x64_S512x64_1_0_0_1_n_n none a b (constant (F := Ideal) S512x64 .f32 0x00000000#32) (ix2 p q)
      = ∑ k : Fin 4096, a (ix2 p k) * b (ix2 k q) := by
  show FloatOps.matmul dot_S512x4096_S4096x64_S512x64_1_0_0_1_n_n none a b (constant (F := Ideal) S512x64 .f32 0x00000000#32) (ix2 p q) = _
  rw [Ideal.matmul_constant_zero_apply, ← Equiv.sum_comp (contrEquiv1 dot_S512x4096_S4096x64_S512x64_1_0_0_1_n_n 4096 rfl rfl).symm]
  refine Finset.sum_congr rfl fun k _ => ?_
  have hk := contrEquiv1_symm_val dot_S512x4096_S4096x64_S512x64_1_0_0_1_n_n 4096 rfl rfl k
  have el : dot_S512x4096_S4096x64_S512x64_1_0_0_1_n_n.lhsIdx (ix2 p q) ((contrEquiv1 dot_S512x4096_S4096x64_S512x64_1_0_0_1_n_n 4096 rfl rfl).symm k) = ix2 p k := funext fun c => Fin.ext (by
    match c with
    | ⟨0, _⟩ => exact matmul_left_row _ _
    | ⟨1, _⟩ => exact (matmul_left_col _ _).trans hk)
  have er : dot_S512x4096_S4096x64_S512x64_1_0_0_1_n_n.rhsIdx (ix2 p q) ((contrEquiv1 dot_S512x4096_S4096x64_S512x64_1_0_0_1_n_n 4096 rfl rfl).symm k) = ix2 k q := funext fun c => Fin.ext (by
    match c with
    | ⟨0, _⟩ => exact (matmul_right_row _ _).trans hk
    | ⟨1, _⟩ => exact matmul_right_col _ _)
  rw [el, er]

/-- The update payload at row `p`, column `q`: the accumulator's entry plus the product of row `p` of the left block
    with column `q` of the right block (the narrowing to bf16 is the identity on the extended reals). -/
theorem pay2_at (x : Vec Ideal S512x4096 .f32) (w : Vec Ideal S4096x64 .f32) (s : Vec Ideal S512x64 .f32) (p : Fin 512) (q : Fin 64) :
    k0_pay2 (F := Ideal) x w s (ix2 p q) = s (ix2 p q) + ∑ k : Fin 4096, x (ix2 p k) * w (ix2 k q) := by
  unfold k0_pay2
  simp only [shapeCast_self]
  rw [addf_apply, matmul_zero_at]
  rfl

/-- A sum over `n = a + b` terms is the sum of the first `a` plus the sum of the following `b`. -/
theorem sum_fin_add {a b n : Nat} (h : a + b = n) (g : Fin n → EReal) :
    ∑ k : Fin n, g k = ∑ k : Fin a, g ⟨k.val, by omega⟩ + ∑ k : Fin b, g ⟨a + k.val, by omega⟩ := by
  subst h
  exact Fin.sum_univ_add g

/-- A sum over 16384 terms is the sum of its four consecutive blocks of 4096, taken in order from zero. -/
theorem sum_four_blocks (f : Fin 16384 → EReal) :
    ∑ k : Fin 16384, f k
      = (((0 + ∑ k : Fin 4096, f ⟨k.val, by omega⟩) + ∑ k : Fin 4096, f ⟨4096 + k.val, by omega⟩)
          + ∑ k : Fin 4096, f ⟨8192 + k.val, by omega⟩) + ∑ k : Fin 4096, f ⟨12288 + k.val, by omega⟩ := by
  -- peel the last block off three times: 16384 = 12288 + 4096, 12288 = 8192 + 4096, 8192 = 4096 + 4096
  have h3 := sum_fin_add (a := 12288) (b := 4096) rfl f
  have h2 := sum_fin_add (a := 8192) (b := 4096) rfl (fun k : Fin 12288 => f ⟨k.val, by omega⟩)
  have h1 := sum_fin_add (a := 4096) (b := 4096) rfl (fun k : Fin 8192 => f ⟨k.val, by omega⟩)
  rw [h3, h2, h1, zero_add]

end Cert.KernelIdeal.Val

end
-- ==== Proof.KI.Final.lean ====
/-
  The product's result array after the run is the whole matrix product of the two argument arrays: the output block
  of row block i is written once, where k = 3, and holds the four partial products of that row block added in order.
-/
import proofs.«100252_j56049323213278_1_alg».proof.Proof.KI.Pieces
import proofs.«100252_j56049323213278_1_alg».proof.Proof.KI.PayAt
import proofs.«100252_j56049323213278_1_alg».proof.Proof.RefRead

set_option maxRecDepth 16384

noncomputable section

namespace Cert.KernelIdeal.Val

open Cert.KernelIdeal Cert.KernelIdeal.Gen
open Idealize.ShloMosaic Idealize.ShloMosaic.TcCoe Idealize.SL.Sem
open Idealize.ShloMosaic.ValueIdx

variable (m : (ℓ : Loc nD τ sig) → Buf (Elt Ideal) ℓ)

/-! ## The blocks and the arrays, at their literal types -/

/-- The left operand's block at grid point `t`: 512 rows by 4096 columns of the left argument. -/
abbrev xblk (c : Dev nD) (t : Fin cfg0.N) : Vec Ideal S512x4096 .f32 := Fr.iblk m c 0 t

/-- The right operand's block at grid point `t`: 4096 rows by 64 columns of the right argument. -/
abbrev wblk (c : Dev nD) (t : Fin cfg0.N) : Vec Ideal S4096x64 .f32 := Fr.iblk m c 1 t

/-- The matrix product of the two argument arrays, as the reference computes it. -/
abbrev prod (c : Dev nD) : Vec Ideal S16384x64 .f32 :=
  Cert.ReferenceIdeal.Read.val_main_v30 (F := Ideal) (m ((c.tc : Thread nD τ).loc main_arg0)) (m ((c.tc : Thread nD τ).loc main_arg2))

/-- The grid has 128 points. -/
theorem point_lt (t : Fin cfg0.N) : t.val < 128 := lt_of_lt_of_eq t.isLt N_0

/-- The block indices at point `t`: the left operand's block is (t / 4, t % 4), the right operand's (t % 4, 0),
    the output's (t / 4, 0). -/
theorem block_index : ∀ t : Fin cfg0.N,
    win0_0.index t (0 : Fin 2) = t.val / 4 ∧ win0_0.index t (1 : Fin 2) = t.val % 4
    ∧ win0_1.index t (0 : Fin 2) = t.val % 4 ∧ win0_1.index t (1 : Fin 2) = 0
    ∧ win0_2.index t (0 : Fin 2) = t.val / 4 ∧ win0_2.index t (1 : Fin 2) = 0 :=
  (by decide +kernel : ∀ t : Fin grid0.N, _)

/-- Entry (p, k) of the left block at point `t` is entry (512 (t / 4) + p, 4096 (t % 4) + k) of the left argument. -/
theorem xblk_read (c : Dev nD) (t : Fin cfg0.N) (p : Fin 512) (k : Fin 4096) (i : S16384x64.Idx) (k' : Fin 16384)
    (hi : (i 0).val = 512 * (t.val / 4) + p.val) (hk : k'.val = 4096 * (t.val % 4) + k.val) :
    xblk m c t (ix2 p k) = m ((c.tc : Thread nD τ).loc main_arg0) (Cert.ReferenceIdeal.Read.lidx_main_v30 i k') := by
  obtain ⟨e0, e1, -, -, -, -⟩ := block_index t
  show Fr.V m c main_arg0 (((cfg0.win 0).blk t).view.emb (ix2 p k)) = _
  rw [Fr.V_main_arg0]
  refine congrArg _ ?_
  funext a
  apply Fin.ext
  match a with
  | ⟨0, _⟩ => show win0_0.index t (0 : Fin 2) * 512 + 1 * p.val = (i 0).val; omega
  | ⟨1, _⟩ => show win0_0.index t (1 : Fin 2) * 4096 + 1 * k.val = k'.val; omega

/-- Entry (k, q) of the right block at point `t` is entry (4096 (t % 4) + k, q) of the right argument. -/
theorem wblk_read (c : Dev nD) (t : Fin cfg0.N) (k : Fin 4096) (q : Fin 64) (i : S16384x64.Idx) (k' : Fin 16384)
    (hi : (i 1).val = q.val) (hk : k'.val = 4096 * (t.val % 4) + k.val) :
    wblk m c t (ix2 k q) = m ((c.tc : Thread nD τ).loc main_arg2) (Cert.ReferenceIdeal.Read.ridx_main_v30 i k') := by
  obtain ⟨-, -, e2, e3, -, -⟩ := block_index t
  show Fr.V m c main_arg2 (((cfg0.win 1).blk t).view.emb (ix2 k q)) = _
  rw [Fr.V_main_arg2]
  refine congrArg _ ?_
  funext a
  apply Fin.ext
  match a with
  | ⟨0, _⟩ => show win0_1.index t (0 : Fin 2) * 4096 + 1 * k.val = k'.val; omega
  | ⟨1, _⟩ => show win0_1.index t (1 : Fin 2) * 64 + 1 * q.val = (i 1).val; omega

/-! ## What the buffers hold along one row block -/

/-- The buffers after a point depend only on the point's position. -/
theorem outsAt0_congr (c : Dev nD) (a b : ℕ) (ha : a < cfg0.N) (hb : b < cfg0.N) (h : a = b) :
    Fr.outsAt0 m c a ha = Fr.outsAt0 m c b hb := by
  subst h; rfl

/-- Where k = 0 the accumulator is left at the update over the reset. -/
theorem acc_first (c : Dev nD) (t : Fin cfg0.N) (h0 : t.val % 4 = 0) :
    (Fr.outsAt0 m c t.val t.isLt).2 = k0_pay2 (F := Ideal) (xblk m c t) (wblk m c t) (k0_pay1 (F := Ideal)) := by
  have h1 : ¬t.val % 4 = 3 := by omega
  rw [Fr.outsAt0_A m c t h0 h1]
  dsimp only
  exact Fr.sout0_A_0_eq (F := Ideal) c (grid0.coords t) (Fr.ms0_0 t) (Fr.hs0_0 t) (Fr.ms0_1 t) (Fr.hs0_1 t) (Fr.ms0_2 t) (Fr.hs0_2 t)
    Fr.scM0_0 (Memref.isWhole_whole _) ((Fr.hcond0_0 t).mpr h0) (fun h => h1 ((Fr.hcond0_1 t).mp h)) (xblk m c t) (wblk m c t)

/-- Where k is 1 or 2 the accumulator is left at the update over what the point before left. -/
theorem acc_step (c : Dev nD) (t s : Fin cfg0.N) (hs : t.val = s.val + 1) (h0 : ¬t.val % 4 = 0) (h1 : ¬t.val % 4 = 3) :
    (Fr.outsAt0 m c t.val t.isLt).2 = k0_pay2 (F := Ideal) (xblk m c t) (wblk m c t) (Fr.outsAt0 m c s.val s.isLt).2 := by
  rw [Fr.outsAt0_B m c t h0 h1]
  dsimp only
  rw [outsAt0_congr m c (t.val - 1) s.val (Nat.lt_of_le_of_lt (Nat.sub_le _ _) t.isLt) s.isLt (by omega)]
  exact Fr.sout0_B_0_eq (F := Ideal) c (grid0.coords t) (Fr.ms0_0 t) (Fr.hs0_0 t) (Fr.ms0_1 t) (Fr.hs0_1 t) (Fr.ms0_2 t) (Fr.hs0_2 t)
    Fr.scM0_0 (Memref.isWhole_whole _) (fun h => h0 ((Fr.hcond0_0 t).mp h)) (fun h => h1 ((Fr.hcond0_1 t).mp h)) (xblk m c t) (wblk m c t)
    (Fr.outsAt0 m c s.val s.isLt).2

/-- Where k = 3 the output buffer is left at the update over what the point before left. -/
theorem out_last (c : Dev nD) (t s : Fin cfg0.N) (hs : t.val = s.val + 1) (h1 : t.val % 4 = 3) :
    (Fr.outsAt0 m c t.val t.isLt).1 = k0_pay2 (F := Ideal) (xblk m c t) (wblk m c t) (Fr.outsAt0 m c s.val s.isLt).2 := by
  have h0 : ¬t.val % 4 = 0 := by omega
  rw [Fr.outsAt0_C m c t h0 h1]
  dsimp only
  rw [outsAt0_congr m c (t.val - 1) s.val (Nat.lt_of_le_of_lt (Nat.sub_le _ _) t.isLt) s.isLt (by omega)]
  exact Fr.out0_C_2_eq (F := Ideal) c (grid0.coords t) (Fr.ms0_0 t) (Fr.hs0_0 t) (Fr.ms0_1 t) (Fr.hs0_1 t) (Fr.ms0_2 t) (Fr.hs0_2 t)
    Fr.scM0_0 (Memref.isWhole_whole _) (fun h => h0 ((Fr.hcond0_0 t).mp h)) ((Fr.hcond0_1 t).mpr h1) (xblk m c t) (wblk m c t)
    (Fr.outsAt0 m c s.val s.isLt).2

/-- Four updates over the reset, read at row `p` and column `q`: the four partial products added in order from zero. -/
theorem four_updates_at (x0 x1 x2 x3 : Vec Ideal S512x4096 .f32) (w0 w1 w2 w3 : Vec Ideal S4096x64 .f32) (p : Fin 512) (q : Fin 64) :
    k0_pay2 (F := Ideal) x3 w3 (k0_pay2 (F := Ideal) x2 w2 (k0_pay2 (F := Ideal) x1 w1 (k0_pay2 (F := Ideal) x0 w0 (k0_pay1 (F := Ideal))))) (ix2 p q)
      = ((((0 : EReal) + ∑ k : Fin 4096, x0 (ix2 p k) * w0 (ix2 k q)) + ∑ k : Fin 4096, x1 (ix2 p k) * w1 (ix2 k q))
          + ∑ k : Fin 4096, x2 (ix2 p k) * w2 (ix2 k q)) + ∑ k : Fin 4096, x3 (ix2 p k) * w3 (ix2 k q) := by
  rw [pay2_at, pay2_at, pay2_at, pay2_at, pay1_at]

/-- The output buffer at the last point of a row block, read at row `p` and column `q`. -/
theorem out_at (c : Dev nD) (t0 t1 t2 t3 : Fin cfg0.N) (h10 : t1.val = t0.val + 1) (h21 : t2.val = t1.val + 1) (h32 : t3.val = t2.val + 1)
    (h0 : t0.val % 4 = 0) (p : Fin 512) (q : Fin 64) :
    (Fr.outsAt0 m c t3.val t3.isLt).1 (ix2 p q)
      = ((((0 : EReal) + ∑ k : Fin 4096, xblk m c t0 (ix2 p k) * wblk m c t0 (ix2 k q)) + ∑ k : Fin 4096, xblk m c t1 (ix2 p k) * wblk m c t1 (ix2 k q))
          + ∑ k : Fin 4096, xblk m c t2 (ix2 p k) * wblk m c t2 (ix2 k q)) + ∑ k : Fin 4096, xblk m c t3 (ix2 p k) * wblk m c t3 (ix2 k q) := by
  rw [out_last m c t3 t2 h32 (by omega), acc_step m c t2 t1 h21 (by omega) (by omega), acc_step m c t1 t0 h10 (by omega) (by omega),
    acc_first m c t0 h0]
  exact four_updates_at (xblk m c t0) (xblk m c t1) (xblk m c t2) (xblk m c t3) (wblk m c t0) (wblk m c t1) (wblk m c t2) (wblk m c t3) p q

/-! ## From the blocks to the array -/

/-- The output block written back at the last point `t` of a row block, read at row `p` and column `q`, is the matrix
    product at row 512 (t / 4) + p and column q: the four partial sums are the four quarters of the contraction. -/
theorem out_eq_prod (c : Dev nD) (t : Fin cfg0.N) (h3 : t.val % 4 = 3) (p : Fin 512) (q : Fin 64) (i : S16384x64.Idx)
    (hi0 : (i 0).val = 512 * (t.val / 4) + p.val) (hi1 : (i 1).val = q.val) :
    (Fr.outsAt0 m c t.val t.isLt).1 (ix2 p q) = prod m c i := by
  have hN := point_lt t
  have hlt : ∀ d, d ≤ 3 → t.val - d < cfg0.N := fun d _ => Nat.lt_of_le_of_lt (Nat.sub_le _ _) t.isLt
  refine (out_at m c ⟨t.val - 3, hlt 3 (by omega)⟩ ⟨t.val - 2, hlt 2 (by omega)⟩ ⟨t.val - 1, hlt 1 (by omega)⟩ t
    (by show t.val - 2 = t.val - 3 + 1; omega) (by show t.val - 1 = t.val - 2 + 1; omega) (by show t.val = t.val - 1 + 1; omega)
    (by show (t.val - 3) % 4 = 0; omega) p q).trans ?_
  refine Eq.trans ?_ ((Cert.ReferenceIdeal.Read.val_main_v30_apply _ _ i).trans (sum_four_blocks _)).symm
  refine congrArg₂ (· + ·) (congrArg₂ (· + ·) (congrArg₂ (· + ·) (congrArg₂ (· + ·) rfl ?_) ?_) ?_) ?_
  · refine Finset.sum_congr rfl fun k _ => ?_
    exact congrArg₂ (· * ·)
      (xblk_read m c _ p k i ⟨k.val, by omega⟩ (by show _ = 512 * ((t.val - 3) / 4) + p.val; omega) (by show k.val = 4096 * ((t.val - 3) % 4) + k.val; omega))
      (wblk_read m c _ k q i ⟨k.val, by omega⟩ hi1 (by show k.val = 4096 * ((t.val - 3) % 4) + k.val; omega))
  · refine Finset.sum_congr rfl fun k _ => ?_
    exact congrArg₂ (· * ·)
      (xblk_read m c _ p k i ⟨4096 + k.val, by omega⟩ (by show _ = 512 * ((t.val - 2) / 4) + p.val; omega) (by show 4096 + k.val = 4096 * ((t.val - 2) % 4) + k.val; omega))
      (wblk_read m c _ k q i ⟨4096 + k.val, by omega⟩ hi1 (by show 4096 + k.val = 4096 * ((t.val - 2) % 4) + k.val; omega))
  · refine Finset.sum_congr rfl fun k _ => ?_
    exact congrArg₂ (· * ·)
      (xblk_read m c _ p k i ⟨8192 + k.val, by omega⟩ (by show _ = 512 * ((t.val - 1) / 4) + p.val; omega) (by show 8192 + k.val = 4096 * ((t.val - 1) % 4) + k.val; omega))
      (wblk_read m c _ k q i ⟨8192 + k.val, by omega⟩ hi1 (by show 8192 + k.val = 4096 * ((t.val - 1) % 4) + k.val; omega))
  · refine Finset.sum_congr rfl fun k _ => ?_
    exact congrArg₂ (· * ·)
      (xblk_read m c t p k i ⟨12288 + k.val, by omega⟩ hi0 (by show 12288 + k.val = 4096 * (t.val % 4) + k.val; omega))
      (wblk_read m c t k q i ⟨12288 + k.val, by omega⟩ hi1 (by show 12288 + k.val = 4096 * (t.val % 4) + k.val; omega))

/-- What a point that writes back writes is its block of the matrix product. -/
theorem flushed_eq (c : Dev nD) (t : Fin cfg0.N) (hf : (cfg0.win 2).flush t = true) :
    (Fr.dats (F := Ideal) m 0 c).flushed 2 t = ((cfg0.win 2).blk t).view.read (Elt Ideal) (prod m c) := by
  have h3 : t.val % 4 = 3 := (flush0_2 t).mp hf
  obtain ⟨-, -, -, -, e4, e5⟩ := block_index t
  show (cfg0.win 2).cut (grid0.coords t) ((Fr.dats (F := Ideal) m 0 c).after 2 t) = _
  rw [Fr.after0_2]
  funext j
  obtain ⟨p, q, rfl⟩ : ∃ (p : Fin 512) (q : Fin 64), j = ix2 p q := ⟨j 0, j 1, eq_ix2 j⟩
  show (Fr.outsAt0 m c t.val t.isLt).1 (ix2 p q) = prod m c (((cfg0.win 2).blk t).view.emb (ix2 p q))
  refine out_eq_prod m c t h3 p q _ ?_ ?_
  · show win0_2.index t (0 : Fin 2) * 512 + 1 * p.val = 512 * (t.val / 4) + p.val; omega
  · show win0_2.index t (1 : Fin 2) * 64 + 1 * q.val = q.val; omega

/-- An index of the result array is in point `t`'s block iff each coordinate is in the block's range on its axis. -/
theorem mem_out_block (t : Fin cfg0.N) (i : S16384x64.Idx) :
    i ∈ ((cfg0.win 2).blk t).view.set ↔ ∀ a : Fin 2, win0_2.index t a * S512x64.size a ≤ (i a).val ∧ (i a).val < win0_2.index t a * S512x64.size a + S512x64.size a := by
  show i ∈ ((View.whole main_v30).slice (win0_2.rect t)).set ↔ _
  rw [View.set_slice_whole, Rect.mem_set_unit]
  exact Iff.rfl

/-- Every index of the result array is in the block written back at the last point of its row block. -/
theorem cover (i : S16384x64.Idx) : ∃ t : Fin cfg0.N, (cfg0.win 2).flush t = true ∧ i ∈ ((cfg0.win 2).blk t).view.set := by
  have hi0 : (i 0).val < 16384 := (i 0).isLt
  have hi1 : (i 1).val < 64 := (i 1).isLt
  have hlt : 4 * ((i 0).val / 512) + 3 < cfg0.N := lt_of_lt_of_eq (by omega) N_0.symm
  refine ⟨⟨4 * ((i 0).val / 512) + 3, hlt⟩, (flush0_2 _).mpr (by show (4 * ((i 0).val / 512) + 3) % 4 = 3; omega), ?_⟩
  obtain ⟨-, -, -, -, e4, e5⟩ := block_index ⟨4 * ((i 0).val / 512) + 3, hlt⟩
  have e4' : win0_2.index ⟨4 * ((i 0).val / 512) + 3, hlt⟩ (0 : Fin 2) = (4 * ((i 0).val / 512) + 3) / 4 := e4
  rw [mem_out_block]
  intro a
  match a with
  | ⟨0, _⟩ => show win0_2.index ⟨4 * ((i 0).val / 512) + 3, hlt⟩ (0 : Fin 2) * 512 ≤ (i 0).val ∧ (i 0).val < win0_2.index ⟨4 * ((i 0).val / 512) + 3, hlt⟩ (0 : Fin 2) * 512 + 512; omega
  | ⟨1, _⟩ => show win0_2.index ⟨4 * ((i 0).val / 512) + 3, hlt⟩ (1 : Fin 2) * 64 ≤ (i 1).val ∧ (i 1).val < win0_2.index ⟨4 * ((i 0).val / 512) + 3, hlt⟩ (1 : Fin 2) * 64 + 64; omega

/-- After the run the result array of the product is the reference's matrix product of the two arguments. -/
theorem final2 (c : Dev nD) :
    (Fr.dats (F := Ideal) m 0 c).arrAt 2 cfg0.N
      = Cert.ReferenceIdeal.Read.val_main_v30 (F := Ideal) (m ((c.tc : Thread nD τ).loc main_arg0)) (m ((c.tc : Thread nD τ).loc main_arg2)) :=
  (Fr.dats (F := Ideal) m 0 c).arrAt_eq_of_cover 2 (prod m c) (fun t hf => flushed_eq m c t hf) cover

end Cert.KernelIdeal.Val

end
-- ==== Proof.KI.Tail.lean ====
/-
  The host lines after the product compute, from the product's result array and the arguments, what the reference's
  own later lines compute from its matrix product: the two programs print the same lines.
-/
import proofs.«100252_j56049323213278_1_alg».proof.Proof.KI.Final

set_option maxRecDepth 16384

noncomputable section

namespace Cert.KernelIdeal.Val

open Cert.KernelIdeal Cert.KernelIdeal.Gen
open Idealize.ShloMosaic Idealize.ShloMosaic.TcCoe Idealize.SL.Sem
open Idealize.ShloMosaic.ValueIdx

/-! ## The lines as functions of what they read

Both programs print the same lines around the product, so over any float family the lines before the product take the
integer argument to the reference's stages of the same names, and the lines after it take the reference's stages at the
buffers they read (the product, the two edge lists, the edge weights, the five later arguments) to the reference's
last stage.  Stated over arbitrary contents `W`, so that neither side is ever opened at full size. -/

section Lines

open Idealize.ShloMosaic.StableHlo

variable {F : FTy → Type} [FloatOps F]

/-- The source edge list (the first row of the integer argument, then the self loops). -/
theorem prefix_v3 (W : Valuation τ sig (Elt F)) :
    StableHlo.after (List.flatten (Fr.opsB (F := F))) W (Proc.devRef .tc main_v3)
      = Cert.ReferenceIdeal.Read.val_main_v3 (F := F) (W (Proc.devRef .tc main_arg1)) := by
  simp only [Fr.opsB, Gen.hostOps0, Gen.hostOps0_1, Gen.hostOps0_2, List.flatten_cons, List.flatten_nil, List.append_nil, List.cons_append, List.nil_append]
  after_results
  rfl

/-- The target edge list (the second row of the integer argument, then the self loops). -/
theorem prefix_v6 (W : Valuation τ sig (Elt F)) :
    StableHlo.after (List.flatten (Fr.opsB (F := F))) W (Proc.devRef .tc main_v6)
      = Cert.ReferenceIdeal.Read.val_main_v6 (F := F) (W (Proc.devRef .tc main_arg1)) := by
  simp only [Fr.opsB, Gen.hostOps0, Gen.hostOps0_1, Gen.hostOps0_2, List.flatten_cons, List.flatten_nil, List.append_nil, List.cons_append, List.nil_append]
  after_results
  rfl

set_option maxHeartbeats 8000000 in
/-- The edge weights (the product of the two end points' inverse square-root degrees). -/
theorem prefix_v29 (W : Valuation τ sig (Elt F)) :
    StableHlo.after (List.flatten (Fr.opsB (F := F))) W (Proc.devRef .tc main_v29)
      = Cert.ReferenceIdeal.Read.val_main_v29 (F := F) (W (Proc.devRef .tc main_arg1)) := by
  simp only [Fr.opsB, Gen.hostOps0, Gen.hostOps0_1, Gen.hostOps0_2, List.flatten_cons, List.flatten_nil, List.append_nil, List.cons_append, List.nil_append]
  after_results_simp
  rfl

set_option maxHeartbeats 8000000 in
/-- The later lines, from any contents that hold the reference's stages where the lines read, end at the reference's
    last stage. -/
theorem tail_of_reads (W : Valuation τ sig (Elt F))
    (x0 : (⟨Cert.ReferenceIdeal.S16384x16384, .f32⟩ : BufTy).Contents (Elt F))
    (x1 : (⟨Cert.ReferenceIdeal.S2x524288, .i32⟩ : BufTy).Contents (Elt F))
    (x2 : (⟨Cert.ReferenceIdeal.S16384x64, .f32⟩ : BufTy).Contents (Elt F))
    (x3 : (⟨Cert.ReferenceIdeal.S64, .f32⟩ : BufTy).Contents (Elt F))
    (x4 : (⟨Cert.ReferenceIdeal.S64x32, .f32⟩ : BufTy).Contents (Elt F))
    (x5 : (⟨Cert.ReferenceIdeal.S32, .f32⟩ : BufTy).Contents (Elt F))
    (x6 : (⟨Cert.ReferenceIdeal.S32x16, .f32⟩ : BufTy).Contents (Elt F))
    (x7 : (⟨Cert.ReferenceIdeal.S16, .f32⟩ : BufTy).Contents (Elt F))
    (h30 : W (Proc.devRef .tc main_v30) = Cert.ReferenceIdeal.Read.val_main_v30 (F := F) x0 x2)
    (h3 : W (Proc.devRef .tc main_v3) = Cert.ReferenceIdeal.Read.val_main_v3 (F := F) x1)
    (h6 : W (Proc.devRef .tc main_v6) = Cert.ReferenceIdeal.Read.val_main_v6 (F := F) x1)
    (h29 : W (Proc.devRef .tc main_v29) = Cert.ReferenceIdeal.Read.val_main_v29 (F := F) x1)
    (ha3 : W (Proc.devRef .tc main_arg3) = x3)
    (ha4 : W (Proc.devRef .tc main_arg4) = x4)
    (ha5 : W (Proc.devRef .tc main_arg5) = x5)
    (ha6 : W (Proc.devRef .tc main_arg6) = x6)
    (ha7 : W (Proc.devRef .tc main_arg7) = x7) :
    StableHlo.after (List.flatten (Fr.opsA (F := F))) W (Proc.devRef .tc main_v93)
      = Cert.ReferenceIdeal.Read.val_main_v93 (F := F) x0 x1 x2 x3 x4 x5 x6 x7 := by
  simp only [Fr.opsA, Gen.hostOps1, Gen.hostOps1_1, Gen.hostOps1_2, Gen.hostOps1_3, Gen.hostOps1_4, List.flatten_cons, List.flatten_nil, List.append_nil, List.cons_append, List.nil_append]
  after_results_simp
  rw [h30, h3, h6, h29, ha3, ha4, ha5, ha6, ha7]
  rfl

end Lines

variable (m : (ℓ : Loc nD τ sig) → Buf (Elt Ideal) ℓ)

/-- What the later lines find at a buffer that is no array of the product: the contents the earlier lines left. -/
theorem exit_of_ne (c : Dev nD) (b : Ref sig .tc) (hb : ∀ w, Pipeline.arrRef spec0 w ≠ b) :
    Pipeline.withArrays (cfgs 0).spec c (Fr.V0 m c) (fun w => (Fr.dats (F := Ideal) m 0 c).arrAt w (cfgs 0).N) (Proc.devRef .tc b)
      = Fr.V m c b :=
  Pipeline.withArrays_of_ne _ c (Fr.V0 m c) _ b hb

/-- The program's result, after the later host lines, is the reference's result term of the same arguments. -/
theorem result_eq (c : Dev nD) :
    Pipeline.afterTail₀ cfgs (Fr.dats (F := Ideal) m) 0 (Fr.V0 m) Fr.opsA c main_v93
      = Cert.ReferenceIdeal.Read.val_main_v93 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  unfold Pipeline.afterTail₀
  refine tail_of_reads (F := Ideal) _ _ _ _ _ _ _ _ _ ?h30 ?h3 ?h6 ?h29 ?ha3 ?ha4 ?ha5 ?ha6 ?ha7
  case h30 => exact (Pipeline.withArrays_arr spec0 launch0.win.arr_inj c _ _ 2).trans (final2 m c)
  case h3 => exact (exit_of_ne m c main_v3 (by decide)).trans (prefix_v3 _)
  case h6 => exact (exit_of_ne m c main_v6 (by decide)).trans (prefix_v6 _)
  case h29 => exact (exit_of_ne m c main_v29 (by decide)).trans (prefix_v29 _)
  case ha3 => exact (exit_of_ne m c main_arg3 (by decide)).trans (Fr.V_main_arg3 m c)
  case ha4 => exact (exit_of_ne m c main_arg4 (by decide)).trans (Fr.V_main_arg4 m c)
  case ha5 => exact (exit_of_ne m c main_arg5 (by decide)).trans (Fr.V_main_arg5 m c)
  case ha6 => exact (exit_of_ne m c main_arg6 (by decide)).trans (Fr.V_main_arg6 m c)
  case ha7 => exact (exit_of_ne m c main_arg7 (by decide)).trans (Fr.V_main_arg7 m c)

end Cert.KernelIdeal.Val

end
-- ==== Proof.lean ====
/-
  A three-layer graph convolution with a softmax, whose first feature transform x · W1 (a 16384 × 16384 by 16384 × 64
  matrix product) is a pipelined kernel and everything else host code, against the same network with that product a
  host dot_general.  The two programs print the same 113 host lines around the product.

  The kernel walks a 32 × 4 grid: at point (i, k) it multiplies the 512 × 4096 block (i, k) of x by the 4096 × 64
  block (k, 0) of W1 and adds the result to an accumulator that it clears where k = 0; where k = 3 the accumulator is
  stored as block (i, 0) of the result.  The operands are narrowed to bf16 first, which over the extended reals is the
  identity.  So row block i of the result is 0 + P(i,0) + P(i,1) + P(i,2) + P(i,3), the four partial products added in
  order, and entry by entry that is the whole product: a sum over 16384 terms regrouped into four runs of 4096.  Only
  commutativity and associativity of addition on the extended reals are used, so the inputs need not be finite.

  Frames (Proof/K/Frame.lean for the word-level program, Proof/KI/Frame.lean for the idealized one): the body is run
  once per case of its two conditionals; what the accumulator holds after each grid point is defined by recursion on
  the point; no host line writes an argument array and no later line writes an array the product uses.
  The reference's run and its stages are the modules Proof/RefRun.lean and Proof/RefRead.lean.
  Value: Proof/KI/PayAt.lean (the payloads at an index, the regrouped sum), Pieces.lean (what each case leaves),
  Final.lean (the result array is the whole product), Tail.lean (the later host lines are the reference's).
-/
import proofs.«100252_j56049323213278_1_alg».proof.Defs
import proofs.«100252_j56049323213278_1_alg».proof.Proof.Gen.Kernel
import proofs.«100252_j56049323213278_1_alg».proof.Proof.Gen.KernelIdeal
import proofs.«100252_j56049323213278_1_alg».proof.Proof.Gen.ReferenceIdeal
import proofs.«100252_j56049323213278_1_alg».proof.Proof.Gen.Pre_finite_inputs
import proofs.«100252_j56049323213278_1_alg».proof.Proof.K.Frame
import proofs.«100252_j56049323213278_1_alg».proof.Proof.KI.Post
import proofs.«100252_j56049323213278_1_alg».proof.Proof.KI.Tail
import proofs.«100252_j56049323213278_1_alg».proof.Proof.RefRun
import proofs.«100252_j56049323213278_1_alg».proof.Proof.RefRead
import Idealize.ShloMosaic.Adequacy
import Idealize.ShloMosaic.Init

noncomputable section

namespace Cert.Proof

open Idealize.ShloMosaic Idealize.ShloMosaic.TcCoe Idealize.SL.Sem

/-- The word-level program runs to the end and leaves its arguments as they were. -/
theorem frame_k : Cert.frame_Kernel := fun m ρ _ => Cert.Kernel.Fr.frame m ρ

/-- So does the idealized program. -/
theorem frame_ki : Cert.frame_KernelIdeal := fun m ρ _ => Cert.KernelIdeal.Fr.frame m ρ

/-- The reference is host code only: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealizing pass rewrote nothing. -/
theorem preserves : Cert.preserves_Kernel_KernelIdeal := trivial

/-- Both programs end with the reference's result term of the (common) arguments: the kernel's product array is the
    whole matrix product, and the later host lines are the same on both sides. -/
theorem algebraic : Cert.algebraic_KernelIdeal_ReferenceIdeal := by
  intro m ρ m' ρ' _ hagree
  refine ⟨fun c => Cert.ReferenceIdeal.Read.val_main_v93 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(Cert.KernelIdeal.Fr.result_of_post m r h c).trans (Cert.KernelIdeal.Val.result_eq m c),
        Cert.KernelIdeal.Fr.args_of_post m r h c⟩)
      (Cert.KernelIdeal.Fr.run_main (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7⟩ := hagree c
    rw [Cert.ReferenceIdeal.Read.val_main_v93_eq, h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
